-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x128 : Shape := ⟨3, ![8192, 64, 128]⟩
abbrev S8192x128 : Shape := ⟨2, ![8192, 128]⟩
abbrev S128x128 : Shape := ⟨2, ![128, 128]⟩
abbrev S128 : Shape := ⟨1, ![128]⟩
abbrev S384x3 : Shape := ⟨2, ![384, 3]⟩
abbrev S3 : Shape := ⟨1, ![3]⟩
abbrev S384x128 : Shape := ⟨2, ![384, 128]⟩
abbrev S_ : Shape := ⟨0, ![]⟩

class Facts : Prop where
  bcast_S_S8192x64x128 : S_.BroadcastsInDim S8192x64x128 (![] : Fin 0 → Fin S8192x64x128.rank)
  reducesTo_S8192x64x128_S_d0_1_2 : S8192x64x128.ReducesTo [0, 1, 2] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x3 : S_.BroadcastsInDim S384x3 (![] : Fin 0 → Fin S384x3.rank)
  reducesTo_S384x3_S_d0_1 : S384x3.ReducesTo [0, 1] S_
  bcast_S_S3 : S_.BroadcastsInDim S3 (![] : Fin 0 → Fin S3.rank)
  reducesTo_S3_S_d0 : S3.ReducesTo [0] S_
  bcast_S_S384x128 : S_.BroadcastsInDim S384x128 (![] : Fin 0 → Fin S384x128.rank)
  reducesTo_S384x128_S_d0_1 : S384x128.ReducesTo [0, 1] S_

variable [Facts]

def fn_part3 {F : FTy → Type} [FloatOps F] (main_arg11 : FVec F S384x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x128 .f32 := Host.absf main_arg11
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S384x3 .f32) (main_arg8 : FVec F S3 .f32) (main_arg9 : FVec F S384x128 .f32) (main_arg10 : FVec F S128 .f32) (main_arg11 : FVec F S384x128 .f32) (main_arg12 : FVec F S128 .f32) (main_v33 : IVec S_ 1) : IVec S_ 1 :=
  let main_v34 : FVec F S384x3 .f32 := Host.absf main_arg7
  let main_cst_12 : FVec F S_ .f32 := constant S_ .f32 0x7F800000#32
  let main_v35 : FVec F S384x3 .f32 := broadcastInDim S384x3 ![] bcast_S_S384x3 main_cst_12
  let main_v36 : IVec S384x3 1 := cmpf .olt main_v34 main_v35
  let main_c_13 : IVec S_ 1 := constantI S_ 1 1#1
  let main_v37 : IVec S_ 1 := (fun x v => Host.reduce IntOp.andi x v reducesTo_S384x3_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S384x128 .f32 := Host.absf main_arg9
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S384x3 .f32) (main_arg8 : FVec F S3 .f32) (main_arg9 : FVec F S384x128 .f32) (main_arg10 : FVec F S128 .f32) (main_arg11 : FVec F S384x128 .f32) (main_arg12 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x64x128 .f32) (main_arg1 : FVec F S8192x128 .f32) (main_arg2 : FVec F S8192x128 .f32) (main_arg3 : FVec F S128x128 .f32) (main_arg4 : FVec F S128 .f32) (main_arg5 : FVec F S128x128 .f32) (main_arg6 : FVec F S128 .f32) (main_arg7 : FVec F S384x3 .f32) (main_arg8 : FVec F S3 .f32) (main_arg9 : FVec F S384x128 .f32) (main_arg10 : FVec F S128 .f32) (main_arg11 : FVec F S384x128 .f32) (main_arg12 : FVec F S128 .f32) : IVec S_ 1 :=
  let main_v0 : FVec F S8192x64x128 .f32 := Host.absf main_arg0
  let main_cst : FVec F S_ .f32 := constant S_ .f32 0x7F800000#32
  let main_v1 : FVec F S8192x64x128 .f32 := broadcastInDim S8192x64x128 ![] bcast_S_S8192x64x128 main_cst
  let main_v2 : IVec S8192x64x128 1 := cmpf .olt main_v0 main_v1
  let main_c : IVec S_ 1 := constantI S_ 1 1#1
  let main_v3 : IVec S_ 1 := (fun x v => Host.reduce IntOp.andi x v reducesTo_S8192x64x128_S_d0_1_2 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S8192x64x128 : Shape := ⟨3, ![8192, 64, 128]⟩
abbrev S8192x128 : Shape := ⟨2, ![8192, 128]⟩
abbrev S128x128 : Shape := ⟨2, ![128, 128]⟩
abbrev S128 : Shape := ⟨1, ![128]⟩
abbrev S384x3 : Shape := ⟨2, ![384, 3]⟩
abbrev S3 : Shape := ⟨1, ![3]⟩
abbrev S384x128 : Shape := ⟨2, ![384, 128]⟩
abbrev S8192x3 : Shape := ⟨2, ![8192, 3]⟩
abbrev S128x64x128 : Shape := ⟨3, ![128, 64, 128]⟩
abbrev S128x3 : Shape := ⟨2, ![128, 3]⟩
abbrev S128x1x128 : Shape := ⟨3, ![128, 1, 128]⟩
abbrev S1x128 : Shape := ⟨2, ![1, 128]⟩
abbrev S128x384 : Shape := ⟨2, ![128, 384]⟩
abbrev S1x3 : Shape := ⟨2, ![1, 3]⟩
abbrev S128x1 : Shape := ⟨2, ![128, 1]⟩
abbrev S128x1x1 : Shape := ⟨3, ![128, 1, 1]⟩
abbrev S128x62x128 : Shape := ⟨3, ![128, 62, 128]⟩

abbrev nBuf : Space → Nat
  | .hbm => 22
  | .vmem => 24
  | .smem => 0
  | _ => 0

abbrev bufTy : (tb : Table) → Fin (tcTables nBuf tb) → BufTy
  | .hbm, ⟨0, _⟩ => ⟨S8192x64x128, .f32⟩
  | .hbm, ⟨1, _⟩ => ⟨S8192x128, .f32⟩
  | .hbm, ⟨2, _⟩ => ⟨S8192x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x3, .f32⟩
  | .hbm, ⟨8, _⟩ => ⟨S3, .f32⟩
  | .hbm, ⟨9, _⟩ => ⟨S384x128, .f32⟩
  | .hbm, ⟨10, _⟩ => ⟨S128, .f32⟩
  | .hbm, ⟨11, _⟩ => ⟨S384x128, .f32⟩
  | .hbm, ⟨12, _⟩ => ⟨S128, .f32⟩
  | .hbm, ⟨13, _⟩ => ⟨S128x128, .bf16⟩
  | .hbm, ⟨14, _⟩ => ⟨S128x128, .bf16⟩
  | .hbm, ⟨15, _⟩ => ⟨S384x3, .bf16⟩
  | .hbm, ⟨16, _⟩ => ⟨S384x128, .bf16⟩
  | .hbm, ⟨17, _⟩ => ⟨S384x128, .bf16⟩
  | .hbm, ⟨18, _⟩ => ⟨S8192x64x128, .f32⟩
  | .hbm, ⟨19, _⟩ => ⟨S8192x128, .f32⟩
  | .hbm, ⟨20, _⟩ => ⟨S8192x128, .f32⟩
  | .hbm, ⟨21, _⟩ => ⟨S8192x3, .f32⟩
  | .local _ .vmem, ⟨0, _⟩ => ⟨S128x64x128, .f32⟩
  | .local _ .vmem, ⟨1, _⟩ => ⟨S128x64x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S384x3, .bf16⟩
  | .local _ .vmem, ⟨11, _⟩ => ⟨S3, .f32⟩
  | .local _ .vmem, ⟨12, _⟩ => ⟨S384x128, .bf16⟩
  | .local _ .vmem, ⟨13, _⟩ => ⟨S128, .f32⟩
  | .local _ .vmem, ⟨14, _⟩ => ⟨S384x128, .bf16⟩
  | .local _ .vmem, ⟨15, _⟩ => ⟨S128, .f32⟩
  | .local _ .vmem, ⟨16, _⟩ => ⟨S128x64x128, .f32⟩
  | .local _ .vmem, ⟨17, _⟩ => ⟨S128x64x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x3, .f32⟩
  | .local _ .vmem, ⟨23, _⟩ => ⟨S128x3, .f32⟩
  | _, _ => ⟨S8192x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  inb_S128x64x128_S128x64x128_0_0_0 : ∀ a, (![0, 0, 0] : Fin 3 → Nat) a + S128x64x128.size a ≤ S128x64x128.size a
  h_S128x64x128 : 0 < S128x64x128.numel
  inb_S128x128_S128x128_0_0 : ∀ a, (![0, 0] : Fin 2 → Nat) a + S128x128.size a ≤ S128x128.size a
  h_S128x128 : 0 < S128x128.numel
  slices_S128x64x128_o0_0_0_S128x1x128 : S128x64x128.Slices ![0, 0, 0] S128x1x128
  shapeCasts_S128x1x128_S128x128 : S128x1x128.ShapeCasts S128x128
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  concatenates_S128x128_S128x128_S128x128_S128x384_d1 : Shape.Concatenates [S128x128, S128x128, S128x128] S128x384 1
  inb_S384x3_S384x3_0_0 : ∀ a, (![0, 0] : Fin 2 → Nat) a + S384x3.size a ≤ S384x3.size a
  h_S384x3 : 0 < S384x3.numel
  shapeCasts_S384x3_S384x3 : S384x3.ShapeCasts S384x3
  inb_S3_S3_0 : ∀ a, (![0] : Fin 1 → Nat) a + S3.size a ≤ S3.size a
  h_S3 : 0 < S3.numel
  inb_S384x128_S384x128_0_0 : ∀ a, (![0, 0] : Fin 2 → Nat) a + S384x128.size a ≤ S384x128.size a
  h_S384x128 : 0 < S384x128.numel
  shapeCasts_S384x128_S384x128 : S384x128.ShapeCasts S384x128
  shapeCasts_S3_S1x3 : S3.ShapeCasts S1x3
  broadcasts_S1x3_S128x3 : S1x3.Broadcasts S128x3
  reduces_S128x3_S128 : S128x3.Reduces [1] S128
  shapeCasts_S128_S128x1 : S128.ShapeCasts S128x1
  broadcasts_S128x1_S128x3 : S128x1.Broadcasts S128x3
  slices_S128x3_o0_0_S128x1 : S128x3.Slices ![0, 0] S128x1
  shapeCasts_S128x1_S128 : S128x1.ShapeCasts S128
  shapeCasts_S128_S128x1x1 : S128.ShapeCasts S128x1x1
  slices_S128x3_o0_1_S128x1 : S128x3.Slices ![0, 1] S128x1
  slices_S128x3_o0_2_S128x1 : S128x3.Slices ![0, 2] S128x1
  rotates_S128x64x128_d1 : S128x64x128.Rotates 1 none
  broadcasts_S128x1x1_S128x64x128 : S128x1x1.Broadcasts S128x64x128
  broadcasts_S128x1x1_S128x1x128 : S128x1x1.Broadcasts S128x1x128
  slices_S128x64x128_o0_63_0_S128x1x128 : S128x64x128.Slices ![0, 63, 0] S128x1x128
  slices_S128x64x128_o0_1_0_S128x62x128 : S128x64x128.Slices ![0, 1, 0] S128x62x128
  concatenates_S128x1x128_S128x62x128_S128x1x128_S128x64x128_d1 : Shape.Concatenates [S128x1x128, S128x62x128, S128x1x128] S128x64x128 1
  inb_S128x3_S128x3_0_0 : ∀ a, (![0, 0] : Fin 2 → Nat) a + S128x3.size a ≤ S128x3.size a
  h_S128x3 : 0 < S128x3.numel
  dot_S128x128_S128x128_S128x128_1_0_0_1_n_n_wf : DotDims.WF S128x128 S128x128 S128x128 [1] [0] [0] [1] [] []
  dot_S128x384_S384x3_S128x3_1_0_0_1_n_n_wf : DotDims.WF S128x384 S384x3 S128x3 [1] [0] [0] [1] [] []
  dot_S128x384_S384x128_S128x128_1_0_0_1_n_n_wf : DotDims.WF S128x384 S384x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S8192x64x128.size a
  hwx0_0 : ∀ i : grid0.Coords, EltTy.bits .f32 = 32 ∨ (Rect.block (s := S8192x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x128.size a
  hwx0_1 : ∀ i : grid0.Coords, EltTy.bits .f32 = 32 ∨ (Rect.block (s := S8192x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x3.size a ≤ S384x3.size a
  hwx0_7 : ∀ i : grid0.Coords, EltTy.bits .bf16 = 32 ∨ (Rect.block (s := S384x3) S384x3.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384x128.size a ≤ S384x128.size a
  hwx0_9 : ∀ i : grid0.Coords, EltTy.bits .bf16 = 32 ∨ (Rect.block (s := S384x128) S384x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384x128.size a ≤ S384x128.size a
  hwx0_11 : ∀ i : grid0.Coords, EltTy.bits .bf16 = 32 ∨ (Rect.block (s := S384x128) S384x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x64x128.size a ≤ S8192x64x128.size a
  hwx0_13 : ∀ i : grid0.Coords, EltTy.bits .f32 = 32 ∨ (Rect.block (s := S8192x64x128) S128x64x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S8192x128.size a
  hwx0_14 : ∀ i : grid0.Coords, EltTy.bits .f32 = 32 ∨ (Rect.block (s := S8192x128) S128x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S8192x128.size a
  hwx0_15 : ∀ i : grid0.Coords, EltTy.bits .f32 = 32 ∨ (Rect.block (s := S8192x128) S128x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x3.size a ≤ S8192x3.size a
  hwx0_16 : ∀ i : grid0.Coords, EltTy.bits .f32 = 32 ∨ (Rect.block (s := S8192x3) S128x3.size (cc0_transform_16 i) (hinb0_16 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x384_S384x3_S128x3_1_0_0_1_n_n : DotDims S128x384 S384x3 S128x3 where
  lhsContracting := [1]
  rhsContracting := [0]
  lhsNonContracting := [0]
  rhsNonContracting := [1]
  lhsBatch := []
  rhsBatch := []
  wf := dot_S128x384_S384x3_S128x3_1_0_0_1_n_n_wf
def dot_S128x384_S384x128_S128x128_1_0_0_1_n_n : DotDims S128x384 S384x128 S128x128 where
  lhsContracting := [1]
  rhsContracting := [0]
  lhsNonContracting := [0]
  rhsNonContracting := [1]
  lhsBatch := []
  rhsBatch := []
  wf := dot_S128x384_S384x128_S128x128_1_0_0_1_n_n_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S384x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S384x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S384x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5_0) S128x64x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_1) S128x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v5_2) S128x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v5_3) S128x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x64x128 : Shape := ⟨3, ![8192, 64, 128]⟩
abbrev S8192x128 : Shape := ⟨2, ![8192, 128]⟩
abbrev S128x128 : Shape := ⟨2, ![128, 128]⟩
abbrev S128 : Shape := ⟨1, ![128]⟩
abbrev S384x3 : Shape := ⟨2, ![384, 3]⟩
abbrev S3 : Shape := ⟨1, ![3]⟩
abbrev S384x128 : Shape := ⟨2, ![384, 128]⟩
abbrev S8192x1x128 : Shape := ⟨3, ![8192, 1, 128]⟩
abbrev S1x128 : Shape := ⟨2, ![1, 128]⟩
abbrev S8192x384 : Shape := ⟨2, ![8192, 384]⟩
abbrev S8192x3 : Shape := ⟨2, ![8192, 3]⟩
abbrev S1x3 : Shape := ⟨2, ![1, 3]⟩
abbrev S_ : Shape := ⟨0, ![]⟩
abbrev S8192 : Shape := ⟨1, ![8192]⟩
abbrev S8192x1 : Shape := ⟨2, ![8192, 1]⟩
abbrev S8192x63x128 : Shape := ⟨3, ![8192, 63, 128]⟩
abbrev S8192x3x1x1 : Shape := ⟨4, ![8192, 3, 1, 1]⟩
abbrev S8192x1x1x1 : Shape := ⟨4, ![8192, 1, 1, 1]⟩
abbrev S8192x1x1 : Shape := ⟨3, ![8192, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x64x128, .f32⟩
  | .hbm, ⟨1, _⟩ => ⟨S8192x128, .f32⟩
  | .hbm, ⟨2, _⟩ => ⟨S8192x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x3, .f32⟩
  | .hbm, ⟨8, _⟩ => ⟨S3, .f32⟩
  | .hbm, ⟨9, _⟩ => ⟨S384x128, .f32⟩
  | .hbm, ⟨10, _⟩ => ⟨S128, .f32⟩
  | .hbm, ⟨11, _⟩ => ⟨S384x128, .f32⟩
  | .hbm, ⟨12, _⟩ => ⟨S128, .f32⟩
  | .hbm, ⟨13, _⟩ => ⟨S8192x1x128, .f32⟩
  | .hbm, ⟨14, _⟩ => ⟨S8192x128, .f32⟩
  | .hbm, ⟨15, _⟩ => ⟨S8192x128, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S8192x384, .f32⟩
  | .hbm, ⟨24, _⟩ => ⟨S8192x3, .f32⟩
  | .hbm, ⟨25, _⟩ => ⟨S1x3, .f32⟩
  | .hbm, ⟨26, _⟩ => ⟨S8192x3, .f32⟩
  | .hbm, ⟨27, _⟩ => ⟨S8192x3, .f32⟩
  | .hbm, ⟨28, _⟩ => ⟨S8192x128, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S1x128, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x3, .f32⟩
  | .hbm, ⟨43, _⟩ => ⟨S8192x3, .f32⟩
  | .hbm, ⟨44, _⟩ => ⟨S8192x3, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x3, .f32⟩
  | .hbm, ⟨49, _⟩ => ⟨S8192x3, .f32⟩
  | .hbm, ⟨50, _⟩ => ⟨S8192x1x128, .f32⟩
  | .hbm, ⟨51, _⟩ => ⟨S8192x63x128, .f32⟩
  | .hbm, ⟨52, _⟩ => ⟨S8192x64x128, .f32⟩
  | .hbm, ⟨53, _⟩ => ⟨S8192x63x128, .f32⟩
  | .hbm, ⟨54, _⟩ => ⟨S8192x1x128, .f32⟩
  | .hbm, ⟨55, _⟩ => ⟨S_, .f32⟩
  | .hbm, ⟨56, _⟩ => ⟨S8192x1x128, .f32⟩
  | .hbm, ⟨57, _⟩ => ⟨S8192x64x128, .f32⟩
  | .hbm, ⟨58, _⟩ => ⟨S8192x3x1x1, .f32⟩
  | .hbm, ⟨59, _⟩ => ⟨S8192x1x1x1, .f32⟩
  | .hbm, ⟨60, _⟩ => ⟨S8192x1x1, .f32⟩
  | .hbm, ⟨61, _⟩ => ⟨S8192x64x128, .f32⟩
  | .hbm, ⟨62, _⟩ => ⟨S8192x64x128, .f32⟩
  | .hbm, ⟨63, _⟩ => ⟨S8192x1x1x1, .f32⟩
  | .hbm, ⟨64, _⟩ => ⟨S8192x1x1, .f32⟩
  | .hbm, ⟨65, _⟩ => ⟨S8192x64x128, .f32⟩
  | .hbm, ⟨66, _⟩ => ⟨S8192x64x128, .f32⟩
  | .hbm, ⟨67, _⟩ => ⟨S8192x64x128, .f32⟩
  | .hbm, ⟨68, _⟩ => ⟨S8192x1x1x1, .f32⟩
  | .hbm, ⟨69, _⟩ => ⟨S8192x1x1, .f32⟩
  | .hbm, ⟨70, _⟩ => ⟨S8192x64x128, .f32⟩
  | .hbm, ⟨71, _⟩ => ⟨S8192x64x128, .f32⟩
  | .hbm, ⟨72, _⟩ => ⟨S8192x64x128, .f32⟩
  | .hbm, ⟨73, _⟩ => ⟨S8192x128, .f32⟩
  | _, _ => ⟨S8192x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  slices_S8192x64x128_S8192x1x128_0_0_0 : S8192x64x128.Slices ![0, 0, 0] S8192x1x128
  shapeCasts_S8192x1x128_S8192x128 : S8192x1x128.ShapeCasts S8192x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x128_S8192x128_S8192x128_S8192x384_d1 : Shape.Concatenates [S8192x128, S8192x128, S8192x128] S8192x384 1
  bcast_S3_S1x3_1 : S3.BroadcastsInDim S1x3 (![1] : Fin 1 → Fin S1x3.rank)
  bcast_S1x3_S8192x3_0_1 : S1x3.BroadcastsInDim S8192x3 (![0, 1] : Fin 2 → Fin S8192x3.rank)
  reducesTo_S8192x3_S8192_d1 : S8192x3.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x3_0_1 : S8192x1.BroadcastsInDim S8192x3 (![0, 1] : Fin 2 → Fin S8192x3.rank)
  slices_S8192x64x128_S8192x63x128_0_0_0 : S8192x64x128.Slices ![0, 0, 0] S8192x63x128
  concatenates_S8192x1x128_S8192x63x128_S8192x64x128_d1 : Shape.Concatenates [S8192x1x128, S8192x63x128] S8192x64x128 1
  slices_S8192x64x128_S8192x63x128_0_1_0 : S8192x64x128.Slices ![0, 1, 0] S8192x63x128
  bcast_S_S8192x1x128 : S_.BroadcastsInDim S8192x1x128 (![] : Fin 0 → Fin S8192x1x128.rank)
  concatenates_S8192x63x128_S8192x1x128_S8192x64x128_d1 : Shape.Concatenates [S8192x63x128, S8192x1x128] S8192x64x128 1
  bcast_S8192x3_S8192x3x1x1_0_1 : S8192x3.BroadcastsInDim S8192x3x1x1 (![0, 1] : Fin 2 → Fin S8192x3x1x1.rank)
  slices_S8192x3x1x1_S8192x1x1x1_0_0_0_0 : S8192x3x1x1.Slices ![0, 0, 0, 0] S8192x1x1x1
  shapeCasts_S8192x1x1x1_S8192x1x1 : S8192x1x1x1.ShapeCasts S8192x1x1
  bcast_S8192x1x1_S8192x64x128_0_1_2 : S8192x1x1.BroadcastsInDim S8192x64x128 (![0, 1, 2] : Fin 3 → Fin S8192x64x128.rank)
  slices_S8192x3x1x1_S8192x1x1x1_0_1_0_0 : S8192x3x1x1.Slices ![0, 1, 0, 0] S8192x1x1x1
  slices_S8192x3x1x1_S8192x1x1x1_0_2_0_0 : S8192x3x1x1.Slices ![0, 2, 0, 0] S8192x1x1x1
  dot_S8192x128_S128x128_S8192x128_1_0_0_1_n_n_wf : DotDims.WF S8192x128 S128x128 S8192x128 [1] [0] [0] [1] [] []
  dot_S8192x384_S384x3_S8192x3_1_0_0_1_n_n_wf : DotDims.WF S8192x384 S384x3 S8192x3 [1] [0] [0] [1] [] []
  dot_S8192x384_S384x128_S8192x128_1_0_0_1_n_n_wf : DotDims.WF S8192x384 S384x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x384_S384x3_S8192x3_1_0_0_1_n_n : DotDims S8192x384 S384x3 S8192x3 where
  lhsContracting := [1]
  rhsContracting := [0]
  lhsNonContracting := [0]
  rhsNonContracting := [1]
  lhsBatch := []
  rhsBatch := []
  wf := dot_S8192x384_S384x3_S8192x3_1_0_0_1_n_n_wf
def dot_S8192x384_S384x128_S8192x128_1_0_0_1_n_n : DotDims S8192x384 S384x128 S8192x128 where
  lhsContracting := [1]
  rhsContracting := [0]
  lhsNonContracting := [0]
  rhsNonContracting := [1]
  lhsBatch := []
  rhsBatch := []
  wf := dot_S8192x384_S384x128_S8192x128_1_0_0_1_n_n_wf

class Facts : Prop extends Facts₀ where

variable [Facts]
-- ==== Proof.Spec.lean ====
/-
  The stack cell, one batch row at a time, on the extended reals.

  A batch row holds a stack `st` of 64 slots of width 128, a previous state `sp` and an input embedding `xe`, each of
  width 128. The cell embeds the state and the stack's top by two affine layers, joins them to the input embedding into 384
  features, and reads three heads off the features: three action logits (push, pop, keep) turned into probabilities by a
  softmax taken against the row maximum, 128 buffer logits, and 128 state logits squashed by tanh. The stack is then
  blended slot by slot: push (every slot takes its upper neighbour, the top stays), pop (every slot takes its lower
  neighbour, the bottom becomes zero) and keep, weighted by the three probabilities.

  Everything is stated for ONE row over curried index functions, so that a block of rows and the whole batch are the same
  function of their rows; the batched forms at the end fix how a row is cut out of an array. Two spellings of the blended
  stack are given, one adding the three weighted terms everywhere, one that treats the top and bottom slots apart (the
  top gathers the push and keep weights first, the bottom drops the popped zero), and they are shown equal: the only law
  beyond commutativity and associativity of the sum is `(a + b) * s = a * s + b * s`, which on the extended reals holds
  when `a` and `b` are both nonnegative or both `⊥`, and a softmax's entries are always one or the other.
-/
import Idealize.ShloMosaic.PureOps.Ideal
import Idealize.ShloMosaic.Lib.ValueIdx

noncomputable section

namespace StackCell

open Idealize.ShloMosaic Idealize.ShloMosaic.ValueIdx

/-- The float pattern of −∞: the value both row maxima start from. -/
abbrev negInf : EReal := Ideal.ofBits .f32 0xFF800000#32

/-- One coordinate of an affine layer: row `v` against column `j` of the weights, plus the bias. -/
def lin {K N : Nat} (v : Fin K → EReal) (Wm : Fin K → Fin N → EReal) (bias : Fin N → EReal) (j : Fin N) : EReal :=
  (∑ k : Fin K, v k * Wm k j) + bias j

/-- Three rows of width 128 laid end to end. -/
def cat3 (a b c : Fin 128 → EReal) (q : Fin 384) : EReal :=
  if h : q.val < 128 then a ⟨q.val, h⟩
  else if h' : q.val < 256 then b ⟨q.val - 128, by omega⟩
  else c ⟨q.val - 256, by have := q.isLt; omega⟩

/-- The maximum of three logits, taken from −∞ and once more against −∞. -/
def rowMax (z : Fin 3 → EReal) : EReal := max negInf ((Finset.univ : Finset (Fin 3)).fold max negInf z)

/-- The softmax of three logits against their maximum. -/
def soft (z : Fin 3 → EReal) (a : Fin 3) : EReal :=
  Ideal.div (Ideal.exp (z a - rowMax z)) (∑ a' : Fin 3, Ideal.exp (z a' - rowMax z))

/-- The weights of the two embedding layers (state and stack top). -/
structure Emb where
  Ws : Fin 128 → Fin 128 → EReal
  bs : Fin 128 → EReal
  Wt : Fin 128 → Fin 128 → EReal
  bt : Fin 128 → EReal

/-- The 384 features of a row: the input embedding, the embedded state, the embedded stack top. -/
def features (E : Emb) (st : Fin 64 → Fin 128 → EReal) (sp xe : Fin 128 → EReal) : Fin 384 → EReal :=
  cat3 xe (lin sp E.Ws E.bs) (lin (st 0) E.Wt E.bt)

/-- A head of width `N` read off the features. -/
def head {N : Nat} (E : Emb) (Wh : Fin 384 → Fin N → EReal) (bh : Fin N → EReal)
    (st : Fin 64 → Fin 128 → EReal) (sp xe : Fin 128 → EReal) : Fin N → EReal :=
  lin (features E st sp xe) Wh bh

/-- The action probabilities of a row. -/
def probs (E : Emb) (Wm : Fin 384 → Fin 3 → EReal) (bm : Fin 3 → EReal)
    (st : Fin 64 → Fin 128 → EReal) (sp xe : Fin 128 → EReal) : Fin 3 → EReal :=
  soft (head E Wm bm st sp xe)

/-- The next state of a row. -/
def nextState (E : Emb) (Wo : Fin 384 → Fin 128 → EReal) (bo : Fin 128 → EReal)
    (st : Fin 64 → Fin 128 → EReal) (sp xe : Fin 128 → EReal) (j : Fin 128) : EReal :=
  Ideal.tanh (head E Wo bo st sp xe j)

/-- Push: every slot takes the slot above it; the top slot stays. -/
def pushed (st : Fin 64 → Fin 128 → EReal) (d : Fin 64) (w : Fin 128) : EReal :=
  if d.val = 0 then st 0 w else st ⟨d.val - 1, by have := d.isLt; omega⟩ w

/-- Pop: every slot takes the slot below it; the bottom slot becomes zero. -/
def popped (st : Fin 64 → Fin 128 → EReal) (d : Fin 64) (w : Fin 128) : EReal :=
  if h : d.val + 1 < 64 then st ⟨d.val + 1, h⟩ w else 0

/-- The blended stack: push, pop and keep weighted by `p 0`, `p 1`, `p 2`. -/
def blend (p : Fin 3 → EReal) (st : Fin 64 → Fin 128 → EReal) (d : Fin 64) (w : Fin 128) : EReal :=
  p 0 * pushed st d w + p 1 * popped st d w + p 2 * st d w

/-- The same blend with the two end slots treated apart: the top slot gathers the push and keep weights on itself, the
    bottom slot has no popped term, and the slots between add keep, push, pop in that order. -/
def blendEnds (p : Fin 3 → EReal) (st : Fin 64 → Fin 128 → EReal) (d : Fin 64) (w : Fin 128) : EReal :=
  if d.val = 0 then (p 0 + p 2) * st 0 w + p 1 * st 1 w
  else if h : d.val + 1 < 64 then
    p 2 * st d w + p 0 * st ⟨d.val - 1, by have := d.isLt; omega⟩ w + p 1 * st ⟨d.val + 1, h⟩ w
  else p 0 * st ⟨d.val - 1, by have := d.isLt; omega⟩ w + p 2 * st d w

/-- The new stack of a row. -/
def newStack (E : Emb) (Wm : Fin 384 → Fin 3 → EReal) (bm : Fin 3 → EReal)
    (st : Fin 64 → Fin 128 → EReal) (sp xe : Fin 128 → EReal) : Fin 64 → Fin 128 → EReal :=
  blend (probs E Wm bm st sp xe) st

/-- The new stack of a row, the end slots treated apart. -/
def newStackEnds (E : Emb) (Wm : Fin 384 → Fin 3 → EReal) (bm : Fin 3 → EReal)
    (st : Fin 64 → Fin 128 → EReal) (sp xe : Fin 128 → EReal) : Fin 64 → Fin 128 → EReal :=
  blendEnds (probs E Wm bm st sp xe) st

/-! ## Arrays: a matrix and a vector as curried functions, a row of a batch, and the batched outputs -/

/-- A rank-2 array as a function of its two coordinates. -/
def mat {K N : Nat} (A : (⟨2, ![K, N]⟩ : Shape).Idx → EReal) : Fin K → Fin N → EReal := fun k j => A (ix2 k j)

/-- A rank-1 array as a function of its coordinate. -/
def vec {N : Nat} (v : (⟨1, ![N]⟩ : Shape).Idx → EReal) : Fin N → EReal := fun j => v (ix1 j)

/-- The embedding weights from their four arrays. -/
def embOf (Ws : (⟨2, ![128, 128]⟩ : Shape).Idx → EReal) (bs : (⟨1, ![128]⟩ : Shape).Idx → EReal)
    (Wt : (⟨2, ![128, 128]⟩ : Shape).Idx → EReal) (bt : (⟨1, ![128]⟩ : Shape).Idx → EReal) : Emb :=
  ⟨mat Ws, vec bs, mat Wt, vec bt⟩

/-- Row `b` of a batch of stacks. -/
def stackRow {B : Nat} (S : (⟨3, ![B, 64, 128]⟩ : Shape).Idx → EReal) (b : Fin B) : Fin 64 → Fin 128 → EReal :=
  fun d w => S (ix3 b d w)

/-- The action probabilities of every row of a batch. -/
def probsArr {B : Nat} (E : Emb) (Wm : Fin 384 → Fin 3 → EReal) (bm : Fin 3 → EReal)
    (S : (⟨3, ![B, 64, 128]⟩ : Shape).Idx → EReal) (sp xe : (⟨2, ![B, 128]⟩ : Shape).Idx → EReal) :
    (⟨2, ![B, 3]⟩ : Shape).Idx → EReal :=
  fun i => probs E Wm bm (stackRow S (i 0)) (mat sp (i 0)) (mat xe (i 0)) (i 1)

/-- A width-128 head of every row of a batch (the buffer logits). -/
def headArr {B : Nat} (E : Emb) (Wh : Fin 384 → Fin 128 → EReal) (bh : Fin 128 → EReal)
    (S : (⟨3, ![B, 64, 128]⟩ : Shape).Idx → EReal) (sp xe : (⟨2, ![B, 128]⟩ : Shape).Idx → EReal) :
    (⟨2, ![B, 128]⟩ : Shape).Idx → EReal :=
  fun i => head E Wh bh (stackRow S (i 0)) (mat sp (i 0)) (mat xe (i 0)) (i 1)

/-- The next state of every row of a batch. -/
def stateArr {B : Nat} (E : Emb) (Wo : Fin 384 → Fin 128 → EReal) (bo : Fin 128 → EReal)
    (S : (⟨3, ![B, 64, 128]⟩ : Shape).Idx → EReal) (sp xe : (⟨2, ![B, 128]⟩ : Shape).Idx → EReal) :
    (⟨2, ![B, 128]⟩ : Shape).Idx → EReal :=
  fun i => nextState E Wo bo (stackRow S (i 0)) (mat sp (i 0)) (mat xe (i 0)) (i 1)

/-- The new stack of every row of a batch. -/
def stackArr {B : Nat} (E : Emb) (Wm : Fin 384 → Fin 3 → EReal) (bm : Fin 3 → EReal)
    (S : (⟨3, ![B, 64, 128]⟩ : Shape).Idx → EReal) (sp xe : (⟨2, ![B, 128]⟩ : Shape).Idx → EReal) :
    (⟨3, ![B, 64, 128]⟩ : Shape).Idx → EReal :=
  fun i => newStack E Wm bm (stackRow S (i 0)) (mat sp (i 0)) (mat xe (i 0)) (i 1) (i 2)

/-- The new stack of every row of a batch, the end slots treated apart. -/
def stackArrEnds {B : Nat} (E : Emb) (Wm : Fin 384 → Fin 3 → EReal) (bm : Fin 3 → EReal)
    (S : (⟨3, ![B, 64, 128]⟩ : Shape).Idx → EReal) (sp xe : (⟨2, ![B, 128]⟩ : Shape).Idx → EReal) :
    (⟨3, ![B, 64, 128]⟩ : Shape).Idx → EReal :=
  fun i => newStackEnds E Wm bm (stackRow S (i 0)) (mat sp (i 0)) (mat xe (i 0)) (i 1) (i 2)

end StackCell

end
-- ==== Proof.KernelHeads.lean ====
/-
  The kernel's three heads at an index.

  The body of the stack cell computes, for a block of 128 rows, the 384 features of each row (the input embedding, the
  embedded state and the embedded stack top laid end to end), and reads three heads off them: the three action logits
  turned into a softmax against the row maximum, the 128 buffer logits, and the tanh of the 128 state logits. Here each
  of those values is read at one index and shown to be the row-by-row specification: a contraction into a zero
  accumulator is the plain sum over the contracted coordinate, a format change is the identity on the extended reals,
  a concatenation reads the piece that holds the coordinate, and a row maximum or row sum over three logits is the fold
  or the sum over the three coordinates.
-/
import proofs.«407272_j37357625540657_3_alg».proof.Proof.Gen.KernelIdeal.Skeleton
import proofs.«407272_j37357625540657_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KerValue

open Cert.KernelIdeal Cert.KernelIdeal.Gen Idealize.ShloMosaic Idealize.ShloMosaic.ValueIdx StackCell

/-! ## Rows by columns: a contraction into the zero accumulator, read at an index

The three contractions of the body have one form: a block of rows contracted on its second axis against the first axis
of a block of columns, nothing batched. For that form the left operand is read at (row, k), the right at (k, column),
and the sum over the contraction's one axis is the sum over k. -/

section RowsByCols
variable {M K N : Nat} (wf : DotDims.WF ⟨2, ![M, K]⟩ ⟨2, ![K, N]⟩ ⟨2, ![M, N]⟩ [1] [0] [0] [1] [] [])

/-- Rows by columns: the left block contracted on its second axis against the right block's first axis. -/
abbrev rowsByCols : DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The left operand's row is the result's row. -/
theorem lhs_rowsByCols_0 (i : (⟨2, ![M, N]⟩ : Shape).Idx) (q : (rowsByCols wf).contr.Idx) :
    ((rowsByCols wf).lhsIdx i q 0).val = (i 0).val := by
  unfold DotDims.lhsIdx
  rw [dif_neg (show ¬(0 : Fin (⟨2, ![M, K]⟩ : Shape).rank) ∈ (rowsByCols wf).lhsBatch from List.not_mem_nil),
    dif_pos (show (0 : Fin (⟨2, ![M, K]⟩ : Shape).rank) ∈ (rowsByCols wf).lhsNonContracting from List.mem_singleton.mpr rfl)]
  rfl
/-- The left operand's column is the contraction's coordinate. -/
theorem lhs_rowsByCols_1 (i : (⟨2, ![M, N]⟩ : Shape).Idx) (q : (rowsByCols wf).contr.Idx) :
    ((rowsByCols wf).lhsIdx i q 1).val = (q ⟨0, Nat.one_pos⟩).val :=
  (rowsByCols wf).lhsIdx_val_of_single rfl i q
/-- The right operand's row is the contraction's coordinate. -/
theorem rhs_rowsByCols_0 (i : (⟨2, ![M, N]⟩ : Shape).Idx) (q : (rowsByCols wf).contr.Idx) :
    ((rowsByCols wf).rhsIdx i q 0).val = (q ⟨0, Nat.one_pos⟩).val :=
  (rowsByCols wf).rhsIdx_val_of_single rfl i q
/-- The right operand's column is the result's column. -/
theorem rhs_rowsByCols_1 (i : (⟨2, ![M, N]⟩ : Shape).Idx) (q : (rowsByCols wf).contr.Idx) :
    ((rowsByCols wf).rhsIdx i q 1).val = (i 1).val := by
  unfold DotDims.rhsIdx
  rw [dif_neg (show ¬(1 : Fin (⟨2, ![K, N]⟩ : Shape).rank) ∈ (rowsByCols wf).rhsBatch from List.not_mem_nil),
    dif_pos (show (1 : Fin (⟨2, ![K, N]⟩ : Shape).rank) ∈ (rowsByCols wf).rhsNonContracting from List.mem_singleton.mpr rfl)]
  rfl

/-- Into the zero accumulator the contraction at (b, j) is the sum over k of the left block at (b, k) times the right
    block at (k, j). -/
theorem matmul_rowsByCols_apply {φ₁ φ₂ : FTy} (A : FVec Ideal ⟨2, ![M, K]⟩ φ₁) (W : FVec Ideal ⟨2, ![K, N]⟩ φ₂)
    (b : Fin M) (j : Fin N) :
    matmul (rowsByCols wf) none A W (constant (F := Ideal) ⟨2, ![M, N]⟩ .f32 0x00000000#32) (ix2 b j)
      = ∑ k : Fin K, A (ix2 b k) * W (ix2 k j) := by
  refine (Ideal.matmul_constant_zero_apply (rowsByCols wf) none A W (ix2 b j)).trans ?_
  rw [← Equiv.sum_comp (contrEquiv1 (rowsByCols wf) K rfl rfl).symm]
  refine Finset.sum_congr rfl fun k _ => ?_
  have hk := contrEquiv1_symm_val (rowsByCols wf) K rfl rfl k
  have el : (rowsByCols wf).lhsIdx (ix2 b j) ((contrEquiv1 (rowsByCols wf) K rfl rfl).symm k) = ix2 b k :=
    funext fun a => Fin.ext (by
      match a with
      | ⟨0, _⟩ => exact lhs_rowsByCols_0 wf _ _
      | ⟨1, _⟩ => exact (lhs_rowsByCols_1 wf _ _).trans hk)
  have er : (rowsByCols wf).rhsIdx (ix2 b j) ((contrEquiv1 (rowsByCols wf) K rfl rfl).symm k) = ix2 k j :=
    funext fun a => Fin.ext (by
      match a with
      | ⟨0, _⟩ => exact (rhs_rowsByCols_0 wf _ _).trans hk
      | ⟨1, _⟩ => exact rhs_rowsByCols_1 wf _ _)
  rw [el, er]

end RowsByCols

/-- The embedding layers' contraction, [128, 128] by [128, 128]. -/
theorem matmul_emb_apply (A : FVec Ideal S128x128 .bf16) (W : FVec Ideal S128x128 .bf16) (b : Fin 128) (j : Fin 128) :
    matmul dot_S128x128_S128x128_S128x128_1_0_0_1_n_n none A W (constant (F := Ideal) S128x128 .f32 0x00000000#32) (ix2 b j)
      = ∑ k : Fin 128, A (ix2 b k) * W (ix2 k j) :=
  matmul_rowsByCols_apply Facts₀.dot_S128x128_S128x128_S128x128_1_0_0_1_n_n_wf A W b j

/-- The action head's contraction, [128, 384] by [384, 3]. -/
theorem matmul_act_apply (A : FVec Ideal S128x384 .bf16) (W : FVec Ideal S384x3 .bf16) (b : Fin 128) (j : Fin 3) :
    matmul dot_S128x384_S384x3_S128x3_1_0_0_1_n_n none A W (constant (F := Ideal) S128x3 .f32 0x00000000#32) (ix2 b j)
      = ∑ k : Fin 384, A (ix2 b k) * W (ix2 k j) :=
  matmul_rowsByCols_apply Facts₀.dot_S128x384_S384x3_S128x3_1_0_0_1_n_n_wf A W b j

/-- The two wide heads' contraction, [128, 384] by [384, 128]. -/
theorem matmul_head_apply (A : FVec Ideal S128x384 .bf16) (W : FVec Ideal S384x128 .bf16) (b : Fin 128) (j : Fin 128) :
    matmul dot_S128x384_S384x128_S128x128_1_0_0_1_n_n none A W (constant (F := Ideal) S128x128 .f32 0x00000000#32) (ix2 b j)
      = ∑ k : Fin 384, A (ix2 b k) * W (ix2 k j) :=
  matmul_rowsByCols_apply Facts₀.dot_S128x384_S384x128_S128x128_1_0_0_1_n_n_wf A W b j

/-! ## The layout pieces of the body, read at an index -/

/-- A bias of width `N` cast to one row and broadcast down `A` rows reads, at (b, c), the bias at `c`. -/
theorem biasRows_apply {A N : Nat} {α : Type} (v : (⟨1, ![N]⟩ : Shape).Idx → α)
    (hc : (⟨1, ![N]⟩ : Shape).ShapeCasts ⟨2, ![1, N]⟩) (hb : (⟨2, ![1, N]⟩ : Shape).Broadcasts ⟨2, ![A, N]⟩)
    (b : Fin A) (c : Fin N) :
    broadcastTo ⟨2, ![A, N]⟩ (shapeCast ⟨2, ![1, N]⟩ v hc) hb (ix2 b c) = v (ix1 c) :=
  (broadcastTo_1b_ab_apply _ hb b c).trans (shapeCast_a_1a_apply v hc 0 c)

/-- The top slot of every row's stack, as a [128, 128] block, reads at (b, k) the stack at (b, 0, k). -/
theorem stackTop_apply {α : Type} (S : S128x64x128.Idx → α) (hs : S128x64x128.Slices ![0, 0, 0] S128x1x128)
    (hc : S128x1x128.ShapeCasts S128x128) (b : Fin 128) (k : Fin 128) :
    shapeCast S128x128 (extractStridedSlice S128x1x128 ![0, 0, 0] S hs) hc (ix2 b k) = S (ix3 b (0 : Fin 64) k) := by
  refine (shapeCast_apply _ hc (ix2 b k) (ix3 b (0 : Fin 1) k) ?_).trans ?_
  · rw [Shape.rowMajor_val_three, Shape.rowMajor_val_two]
    show (b.val * 1 + 0) * 128 + k.val = b.val * 128 + k.val
    omega
  · exact slice3_axis1_apply 0 S hs b (0 : Fin 1) k (0 : Fin 64) rfl

/-- Three [128, 128] blocks laid side by side read, at (b, q), the three rows at `b` laid end to end. -/
theorem sideBySide_apply (P0 P1 P2 : S128x128.Idx → EReal)
    (h : Shape.Concatenates [S128x128, S128x128, S128x128] S128x384 1) (b : Fin 128) (q : Fin 384) :
    concatenate S128x384 1 [⟨S128x128, P0⟩, ⟨S128x128, P1⟩, ⟨S128x128, P2⟩] h (ix2 b q)
      = cat3 (fun c => P0 (ix2 b c)) (fun c => P1 (ix2 b c)) (fun c => P2 (ix2 b c)) q := by
  unfold cat3
  split
  · next h0 =>
    exact concatenate_apply_piece (1 : Fin S128x384.rank) [⟨S128x128, P0⟩, ⟨S128x128, P1⟩, ⟨S128x128, P2⟩] h (ix2 b q) 0 (by show 0 < 3; omega) S128x128 P0 rfl rfl 0 rfl
      (ix2 b ⟨q.val, h0⟩)
      (fun a ha => by
        match a with
        | ⟨0, _⟩ => rfl
        | ⟨1, _⟩ => exact absurd rfl ha)
      (Nat.zero_add _)
  · next h0 =>
    split
    · next h1 =>
      exact concatenate_apply_piece (1 : Fin S128x384.rank) [⟨S128x128, P0⟩, ⟨S128x128, P1⟩, ⟨S128x128, P2⟩] h (ix2 b q) 1 (by show 1 < 3; omega) S128x128 P1 rfl rfl 128 rfl
        (ix2 b ⟨q.val - 128, by omega⟩)
        (fun a ha => by
          match a with
          | ⟨0, _⟩ => rfl
          | ⟨1, _⟩ => exact absurd rfl ha)
        (by show 128 + (q.val - 128) = q.val; omega)
    · next h1 =>
      exact concatenate_apply_piece (1 : Fin S128x384.rank) [⟨S128x128, P0⟩, ⟨S128x128, P1⟩, ⟨S128x128, P2⟩] h (ix2 b q) 2 (by show 2 < 3; omega) S128x128 P2 rfl rfl 256 rfl
        (ix2 b ⟨q.val - 256, by have := q.isLt; omega⟩)
        (fun a ha => by
          match a with
          | ⟨0, _⟩ => rfl
          | ⟨1, _⟩ => exact absurd rfl ha)
        (by show 256 + (q.val - 256) = q.val; omega)

/-- One embedding layer of the body — the block taken to bf16, contracted against the weights into the zero accumulator,
    the bias added along every row — reads at (b, c) the affine layer of row `b` at `c`. -/
theorem embLayer_apply (A : FVec Ideal S128x128 .f32) (W : FVec Ideal S128x128 .bf16) (bias : FVec Ideal S128 .f32)
    (ht : FTy.bits .bf16 < FTy.bits .f32) (hw : S128x128.ShapeCasts S128x128) (hc : S128.ShapeCasts S1x128)
    (hb : S1x128.Broadcasts S128x128) (b : Fin 128) (c : Fin 128) :
    addf (matmul dot_S128x128_S128x128_S128x128_1_0_0_1_n_n none (truncf .bf16 A ht) (shapeCast S128x128 W hw)
        (constant (F := Ideal) S128x128 .f32 0x00000000#32))
      (broadcastTo S128x128 (shapeCast S1x128 bias hc) hb) (ix2 b c)
      = lin (fun k => A (ix2 b k)) (mat W) (vec bias) c := by
  rw [shapeCast_self]
  refine (addf_apply _ _ _).trans ?_
  rw [matmul_emb_apply, biasRows_apply]
  rfl

/-! ## The 384 features of a row -/

/-- The features block of the body reads, at (b, q), the features of row `b` at `q`: the input embedding, the embedded
    state and the embedded stack top laid end to end. -/
theorem features_apply (x0 : Vec Ideal S128x64x128 .f32) (x1 x2 : Vec Ideal S128x128 .f32) (x3 : Vec Ideal S128x128 .bf16)
    (x4 : Vec Ideal S128 .f32) (x5 : Vec Ideal S128x128 .bf16) (x6 : Vec Ideal S128 .f32) (b : Fin 128) (q : Fin 384) :
    k0_pay3 x0 x1 x2 x3 x4 x5 x6 (ix2 b q)
      = features (embOf x3 x4 x5 x6) (stackRow x0 b) (mat x1 b) (mat x2 b) q := by
  dsimp only [k0_pay3]
  refine (truncf_apply (φ := .f32) (ψ := .bf16) _ _ _).trans ((sideBySide_apply _ _ _ _ b q).trans ?_)
  show cat3 _ _ _ q = cat3 _ _ _ q
  congr 1
  · funext c
    exact embLayer_apply x1 x3 x4 _ _ _ _ b c
  · funext c
    exact (embLayer_apply _ x5 x6 _ _ _ _ b c).trans
      (congrArg (fun v => lin v (mat x5) (vec x6) c) (funext fun k => stackTop_apply x0 _ _ b k))

/-! ## The two wide heads: the buffer logits and the next state -/

/-- A wide head of the body — the features contracted against the head's weights into the zero accumulator, the bias
    added along every row — reads at (b, c) the affine layer of the features' row `b` at `c`. -/
theorem wideHead_apply (Fe : FVec Ideal S128x384 .bf16) (W : FVec Ideal S384x128 .bf16) (bias : FVec Ideal S128 .f32)
    (hw : S384x128.ShapeCasts S384x128) (hc : S128.ShapeCasts S1x128) (hb : S1x128.Broadcasts S128x128)
    (b : Fin 128) (c : Fin 128) :
    addf (matmul dot_S128x384_S384x128_S128x128_1_0_0_1_n_n none Fe (shapeCast S384x128 W hw)
        (constant (F := Ideal) S128x128 .f32 0x00000000#32))
      (broadcastTo S128x128 (shapeCast S1x128 bias hc) hb) (ix2 b c)
      = lin (fun q => Fe (ix2 b q)) (mat W) (vec bias) c := by
  rw [shapeCast_self]
  refine (addf_apply _ _ _).trans ?_
  rw [matmul_head_apply, biasRows_apply]
  rfl

/-- The buffer logits of the body are the width-128 head of every row. -/
theorem pay_buf (x0 : Vec Ideal S128x64x128 .f32) (x1 x2 : Vec Ideal S128x128 .f32) (x3 : Vec Ideal S128x128 .bf16)
    (x4 : Vec Ideal S128 .f32) (x5 : Vec Ideal S128x128 .bf16) (x6 : Vec Ideal S128 .f32) (x9 : Vec Ideal S384x128 .bf16)
    (x10 : Vec Ideal S128 .f32) :
    k0_pay8 (k0_pay3 x0 x1 x2 x3 x4 x5 x6) (k0_pay4 x9) x10
      = headArr (B := 128) (embOf x3 x4 x5 x6) (mat x9) (vec x10) x0 x1 x2 := by
  funext i
  obtain ⟨b, c, rfl⟩ : ∃ (b : Fin 128) (c : Fin 128), i = ix2 b c := ⟨i 0, i 1, eq_ix2 i⟩
  dsimp only [k0_pay8, k0_pay4]
  refine (wideHead_apply _ x9 x10 _ _ _ b c).trans ?_
  exact congrArg (fun v => lin v (mat x9) (vec x10) c) (funext fun q => features_apply x0 x1 x2 x3 x4 x5 x6 b q)

/-- The state the body stores is the next state of every row: the tanh of the width-128 state head. -/
theorem pay_state (x0 : Vec Ideal S128x64x128 .f32) (x1 x2 : Vec Ideal S128x128 .f32) (x3 : Vec Ideal S128x128 .bf16)
    (x4 : Vec Ideal S128 .f32) (x5 : Vec Ideal S128x128 .bf16) (x6 : Vec Ideal S128 .f32) (x11 : Vec Ideal S384x128 .bf16)
    (x12 : Vec Ideal S128 .f32) :
    k0_pay2 (k0_pay9 (k0_pay3 x0 x1 x2 x3 x4 x5 x6) (k0_pay5 x11) x12)
      = stateArr (B := 128) (embOf x3 x4 x5 x6) (mat x11) (vec x12) x0 x1 x2 := by
  funext i
  obtain ⟨b, c, rfl⟩ : ∃ (b : Fin 128) (c : Fin 128), i = ix2 b c := ⟨i 0, i 1, eq_ix2 i⟩
  dsimp only [k0_pay2, k0_pay9, k0_pay5]
  refine congrArg Ideal.tanh ?_
  refine (wideHead_apply _ x11 x12 _ _ _ b c).trans ?_
  exact congrArg (fun v => lin v (mat x11) (vec x12) c) (funext fun q => features_apply x0 x1 x2 x3 x4 x5 x6 b q)

/-! ## The action probabilities: the softmax of three logits against the row maximum -/

/-- Inserting the coordinate `a` on the reduced axis of the row index `b` gives the index (b, a). -/
theorem lift_row (hr : S128x3.Reduces [1] S128) (b : Fin 128) (a : Fin 3) : hr.lift (ix1 b) a = ix2 b a := by
  funext c; apply Fin.ext
  fin_cases c <;> rfl

/-- A value per row, cast to a column and broadcast along the three logits, reads at (b, a) the value of row `b`. -/
theorem rowValue_apply {α : Type} (v : S128.Idx → α) (hc : S128.ShapeCasts S128x1) (hb : S128x1.Broadcasts S128x3)
    (b : Fin 128) (a : Fin 3) : broadcastTo S128x3 (shapeCast S128x1 v hc) hb (ix2 b a) = v (ix1 b) := by
  refine (broadcastTo_apply _ hb (ix2 b a) (ix2 b (0 : Fin 1)) fun ax => ?_).trans ?_
  · match ax with
    | ⟨0, _⟩ => show b.val = if (128 : Nat) = 1 then 0 else b.val; rw [if_neg (by decide)]
    | ⟨1, _⟩ => show 0 = if (1 : Nat) = 1 then 0 else a.val; rw [if_pos rfl]
  · refine shapeCast_apply v hc (ix2 b (0 : Fin 1)) (ix1 b) ?_
    rw [Shape.rowMajor_val_one, Shape.rowMajor_val_two]
    show b.val = b.val * 1 + 0
    omega

/-- The rows' maxima as the body takes them: the fold of max over the three logits from −∞, once more against −∞. -/
def rowMaxVec (Z : FVec Ideal S128x3 .f32) (hr : S128x3.Reduces [1] S128) (hφ : FKind.Formats .f32)
    (hm : (0xFF800000#32 : BitVec 32) = FKind.maximumf.neutral .f32 hφ) : FVec Ideal S128 .f32 :=
  maximumf (broadcast S128 (Scalar.ofBits (F := Ideal) .f32 0xFF800000#32))
    (multiReduction .maximumf [1] S128 Z 0xFF800000#32 hr hφ hm)

theorem rowMaxVec_apply (Z : FVec Ideal S128x3 .f32) (hr : S128x3.Reduces [1] S128) (hφ : FKind.Formats .f32)
    (hm : (0xFF800000#32 : BitVec 32) = FKind.maximumf.neutral .f32 hφ) (b : Fin 128) :
    rowMaxVec Z hr hφ hm (ix1 b) = rowMax (fun a => Z (ix2 b a)) := by
  show max negInf (multiReduction .maximumf [1] S128 Z 0xFF800000#32 hr hφ hm (ix1 b))
    = max negInf (Finset.fold max negInf (fun a : Fin 3 => Z (ix2 b a)) Finset.univ)
  refine congrArg (max negInf) ?_
  refine (Ideal.multiReduction_maximumf_single Z _ hr hφ hm (ix1 b)).trans ?_
  have hf : (Z ∘ hr.lift (ix1 b)) = fun a : Fin 3 => Z (ix2 b a) := funext fun a => congrArg Z (lift_row hr b a)
  exact congrArg (fun f => Finset.fold max negInf f (Finset.univ : Finset (Fin 3))) hf

/-- The exponentials of the logits less their row's maximum. -/
def expCentred (Z : FVec Ideal S128x3 .f32) (hr : S128x3.Reduces [1] S128) (hφ : FKind.Formats .f32)
    (hm : (0xFF800000#32 : BitVec 32) = FKind.maximumf.neutral .f32 hφ) (hc : S128.ShapeCasts S128x1)
    (hb : S128x1.Broadcasts S128x3) : FVec Ideal S128x3 .f32 :=
  exp (subf Z (broadcastTo S128x3 (shapeCast S128x1 (rowMaxVec Z hr hφ hm) hc) hb))

theorem expCentred_apply (Z : FVec Ideal S128x3 .f32) (hr : S128x3.Reduces [1] S128) (hφ : FKind.Formats .f32)
    (hm : (0xFF800000#32 : BitVec 32) = FKind.maximumf.neutral .f32 hφ) (hc : S128.ShapeCasts S128x1)
    (hb : S128x1.Broadcasts S128x3) (b : Fin 128) (a : Fin 3) :
    expCentred Z hr hφ hm hc hb (ix2 b a) = Ideal.exp (Z (ix2 b a) - rowMax (fun a' => Z (ix2 b a'))) := by
  show Ideal.exp (Z (ix2 b a) - broadcastTo S128x3 (shapeCast S128x1 (rowMaxVec Z hr hφ hm) hc) hb (ix2 b a)) = _
  exact congrArg (fun t => Ideal.exp (Z (ix2 b a) - t)) ((rowValue_apply _ hc hb b a).trans (rowMaxVec_apply Z hr hφ hm b))

/-- The softmax of every row as the body takes it: the centred exponentials over their row's sum. -/
def softRows (Z : FVec Ideal S128x3 .f32) (hr : S128x3.Reduces [1] S128) (hφ : FKind.Formats .f32)
    (hm : (0xFF800000#32 : BitVec 32) = FKind.maximumf.neutral .f32 hφ)
    (hs : (0x00000000#32 : BitVec 32) = FKind.add.neutral .f32 hφ) (hc : S128.ShapeCasts S128x1)
    (hb : S128x1.Broadcasts S128x3) : FVec Ideal S128x3 .f32 :=
  divf (expCentred Z hr hφ hm hc hb)
    (broadcastTo S128x3 (shapeCast S128x1 (multiReduction .add [1] S128 (expCentred Z hr hφ hm hc hb) 0x00000000#32 hr hφ hs) hc) hb)

theorem softRows_apply (Z : FVec Ideal S128x3 .f32) (hr : S128x3.Reduces [1] S128) (hφ : FKind.Formats .f32)
    (hm : (0xFF800000#32 : BitVec 32) = FKind.maximumf.neutral .f32 hφ)
    (hs : (0x00000000#32 : BitVec 32) = FKind.add.neutral .f32 hφ) (hc : S128.ShapeCasts S128x1)
    (hb : S128x1.Broadcasts S128x3) (b : Fin 128) (a : Fin 3) :
    softRows Z hr hφ hm hs hc hb (ix2 b a) = soft (fun a' => Z (ix2 b a')) a := by
  refine (divf_apply _ _ _).trans ?_
  unfold soft
  refine congrArg₂ Ideal.div (expCentred_apply Z hr hφ hm hc hb b a) ?_
  refine (rowValue_apply _ hc hb b a).trans ?_
  refine (Ideal.multiReduction_add_single (expCentred Z hr hφ hm hc hb) _ hr hφ hs (ix1 b)).trans ?_
  exact Finset.sum_congr rfl fun a' _ =>
    (congrArg (expCentred Z hr hφ hm hc hb) (lift_row hr b a')).trans (expCentred_apply Z hr hφ hm hc hb b a')

/-- The action logits of the body — the features contracted against the three columns of the action weights into the
    zero accumulator, the bias added along every row — are the width-3 head of every row. -/
theorem actLogits_apply (x0 : Vec Ideal S128x64x128 .f32) (x1 x2 : Vec Ideal S128x128 .f32) (x3 : Vec Ideal S128x128 .bf16)
    (x4 : Vec Ideal S128 .f32) (x5 : Vec Ideal S128x128 .bf16) (x6 : Vec Ideal S128 .f32) (x7 : Vec Ideal S384x3 .bf16)
    (x8 : Vec Ideal S3 .f32) (hb : S1x3.Broadcasts S128x3) (b : Fin 128) (a : Fin 3) :
    addf (k0_pay6 x0 x1 x2 x3 x4 x5 x6 x7) (broadcastTo S128x3 (k0_pay7 x8) hb) (ix2 b a)
      = head (embOf x3 x4 x5 x6) (mat x7) (vec x8) (stackRow x0 b) (mat x1 b) (mat x2 b) a := by
  dsimp only [k0_pay6, k0_pay7]
  rw [shapeCast_self]
  refine (addf_apply _ _ _).trans ?_
  rw [matmul_act_apply, biasRows_apply]
  exact congrArg (fun v => lin v (mat x7) (vec x8) a) (funext fun q => features_apply x0 x1 x2 x3 x4 x5 x6 b q)

/-- The probabilities the body stores are the action probabilities of every row. -/
theorem pay_probs (x0 : Vec Ideal S128x64x128 .f32) (x1 x2 : Vec Ideal S128x128 .f32) (x3 : Vec Ideal S128x128 .bf16)
    (x4 : Vec Ideal S128 .f32) (x5 : Vec Ideal S128x128 .bf16) (x6 : Vec Ideal S128 .f32) (x7 : Vec Ideal S384x3 .bf16)
    (x8 : Vec Ideal S3 .f32) :
    k0_pay10 (k0_pay6 x0 x1 x2 x3 x4 x5 x6 x7) (k0_pay7 x8)
      = probsArr (B := 128) (embOf x3 x4 x5 x6) (mat x7) (vec x8) x0 x1 x2 := by
  funext i
  obtain ⟨b, a, rfl⟩ : ∃ (b : Fin 128) (a : Fin 3), i = ix2 b a := ⟨i 0, i 1, eq_ix2 i⟩
  have e : k0_pay10 (k0_pay6 x0 x1 x2 x3 x4 x5 x6 x7) (k0_pay7 x8)
      = softRows (addf (k0_pay6 x0 x1 x2 x3 x4 x5 x6 x7) (broadcastTo S128x3 (k0_pay7 x8) Facts₀.broadcasts_S1x3_S128x3))
          Facts₀.reduces_S128x3_S128 (.inl rfl) rfl rfl Facts₀.shapeCasts_S128_S128x1 Facts₀.broadcasts_S128x1_S128x3 := rfl
  rw [e]
  refine (softRows_apply _ _ _ _ _ _ _ b a).trans ?_
  exact congrArg (fun z => soft z a) (funext fun a' => actLogits_apply x0 x1 x2 x3 x4 x5 x6 x7 x8 _ b a')

end Cert.KernelIdeal.KerValue

end
-- ==== Proof.KernelBlend.lean ====
/-
  The kernel's blended stack, read at an index.

  For a block of 128 rows the body holds the stack block, its rotation by one slot down the slot axis (every slot takes
  the slot above it, the top wraps to the bottom) and by one slot up (every slot takes the slot below it, the bottom wraps
  to the top), and the three columns of the block's action probabilities spread over slots and lanes. Every slot gets
  keep + push + pop from the three arrays; since the rotations wrap, the top and bottom slots are computed apart — the
  top from the stack's slots 0 and 1 with the push and keep weights added first, the bottom from slots 62 and 63 with no
  popped term — and the three pieces are joined along the slot axis. Read at (b, d, w) this is the blend with the end
  slots apart of row b's stack by row b's probabilities; only layout operations are read, no law of arithmetic is used.
-/
import proofs.«407272_j37357625540657_3_alg».proof.Proof.Gen.KernelIdeal.Skeleton
import proofs.«407272_j37357625540657_3_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.KerBlend

open Cert.KernelIdeal Cert.KernelIdeal.Gen Idealize.ShloMosaic Idealize.ShloMosaic.ValueIdx StackCell

/-- Column 0 of the action probabilities, kept as a [128,1,1] array, read at row `b`. -/
theorem pay11_apply (L : FVec Ideal S128x3 .f32) (Z : FVec Ideal S1x3 .f32) (b : Fin 128) (z z' : Fin 1) :
    k0_pay11 L Z (ix3 b z z') = k0_pay10 L Z (ix2 b 0) := by
  have hz : z.val < 1 := z.isLt
  have hz' : z'.val < 1 := z'.isLt
  unfold k0_pay11
  refine (shapeCast_apply _ _ (ix3 b z z') (ix1 b) (by
    rw [Shape.rowMajor_val_one, Shape.rowMajor_val_three]
    show b.val = (b.val * 1 + z.val) * 1 + z'.val
    omega)).trans ?_
  refine (shapeCast_apply _ _ (ix1 b) (ix2 b (0 : Fin 1)) (by
    rw [Shape.rowMajor_val_two, Shape.rowMajor_val_one]
    show b.val * 1 + 0 = b.val
    omega)).trans ?_
  exact extractStridedSlice_apply _ _ _ (ix2 b (0 : Fin 1)) (ix2 b (0 : Fin 3)) (fun a => match a with
    | ⟨0, _⟩ => by show b.val = 0 + b.val; omega
    | ⟨1, _⟩ => by show 0 = 0 + 0; omega)

/-- Column 1 of the action probabilities, kept as a [128,1,1] array, read at row `b`. -/
theorem pay12_apply (L : FVec Ideal S128x3 .f32) (Z : FVec Ideal S1x3 .f32) (b : Fin 128) (z z' : Fin 1) :
    k0_pay12 L Z (ix3 b z z') = k0_pay10 L Z (ix2 b 1) := by
  have hz : z.val < 1 := z.isLt
  have hz' : z'.val < 1 := z'.isLt
  unfold k0_pay12
  refine (shapeCast_apply _ _ (ix3 b z z') (ix1 b) (by
    rw [Shape.rowMajor_val_one, Shape.rowMajor_val_three]
    show b.val = (b.val * 1 + z.val) * 1 + z'.val
    omega)).trans ?_
  refine (shapeCast_apply _ _ (ix1 b) (ix2 b (0 : Fin 1)) (by
    rw [Shape.rowMajor_val_two, Shape.rowMajor_val_one]
    show b.val * 1 + 0 = b.val
    omega)).trans ?_
  exact extractStridedSlice_apply _ _ _ (ix2 b (0 : Fin 1)) (ix2 b (1 : Fin 3)) (fun a => match a with
    | ⟨0, _⟩ => by show b.val = 0 + b.val; omega
    | ⟨1, _⟩ => by show 1 = 1 + 0; omega)

/-- Column 2 of the action probabilities, kept as a [128,1,1] array, read at row `b`. -/
theorem pay13_apply (L : FVec Ideal S128x3 .f32) (Z : FVec Ideal S1x3 .f32) (b : Fin 128) (z z' : Fin 1) :
    k0_pay13 L Z (ix3 b z z') = k0_pay10 L Z (ix2 b 2) := by
  have hz : z.val < 1 := z.isLt
  have hz' : z'.val < 1 := z'.isLt
  unfold k0_pay13
  refine (shapeCast_apply _ _ (ix3 b z z') (ix1 b) (by
    rw [Shape.rowMajor_val_one, Shape.rowMajor_val_three]
    show b.val = (b.val * 1 + z.val) * 1 + z'.val
    omega)).trans ?_
  refine (shapeCast_apply _ _ (ix1 b) (ix2 b (0 : Fin 1)) (by
    rw [Shape.rowMajor_val_two, Shape.rowMajor_val_one]
    show b.val * 1 + 0 = b.val
    omega)).trans ?_
  exact extractStridedSlice_apply _ _ _ (ix2 b (0 : Fin 1)) (ix2 b (2 : Fin 3)) (fun a => match a with
    | ⟨0, _⟩ => by show b.val = 0 + b.val; omega
    | ⟨1, _⟩ => by show 2 = 2 + 0; omega)

/-- The stack rotated by one slot: slot `d` reads the slot before it, around the end. -/
theorem pay14_apply (x0 : Vec Ideal S128x64x128 .f32) (b : Fin 128) (d : Fin 64) (w : Fin 128) (e : Fin 64)
    (he : e.val = (d.val + 63) % 64) : k0_pay14 x0 (ix3 b d w) = x0 (ix3 b e w) := by
  unfold k0_pay14
  exact dynamicRotate_apply (1 : Fin 3) 1#32 _ _ (ix3 b d w) (ix3 b e w) (fun a => match a with
    | ⟨0, _⟩ => rfl
    | ⟨1, _⟩ => by show e.val = (d.val + 64 - 1 % 64) % 64; omega
    | ⟨2, _⟩ => rfl)

/-- The stack rotated by 63 slots: slot `d` reads the slot after it, around the end. -/
theorem pay15_apply (x0 : Vec Ideal S128x64x128 .f32) (b : Fin 128) (d : Fin 64) (w : Fin 128) (e : Fin 64)
    (he : e.val = (d.val + 1) % 64) : k0_pay15 x0 (ix3 b d w) = x0 (ix3 b e w) := by
  unfold k0_pay15
  exact dynamicRotate_apply (1 : Fin 3) 63#32 _ _ (ix3 b d w) (ix3 b e w) (fun a => match a with
    | ⟨0, _⟩ => rfl
    | ⟨1, _⟩ => by show e.val = (d.val + 64 - 63 % 64) % 64; omega
    | ⟨2, _⟩ => rfl)

/-- A per-row weight spread over every slot and lane reads the row's weight. -/
theorem bcast_full (v : FVec Ideal S128x1x1 .f32) (b : Fin 128) (d : Fin 64) (w : Fin 128) :
    broadcastTo S128x64x128 v broadcasts_S128x1x1_S128x64x128 (ix3 b d w) = v (ix3 b 0 0) :=
  broadcastTo_apply v _ (ix3 b d w) (ix3 b (0 : Fin 1) (0 : Fin 1)) (fun a => match a with
    | ⟨0, _⟩ => rfl
    | ⟨1, _⟩ => rfl
    | ⟨2, _⟩ => rfl)

/-- A per-row weight spread over the lanes of one slot reads the row's weight. -/
theorem bcast_row (v : FVec Ideal S128x1x1 .f32) (b : Fin 128) (z : Fin 1) (w : Fin 128) :
    broadcastTo S128x1x128 v broadcasts_S128x1x1_S128x1x128 (ix3 b z w) = v (ix3 b 0 0) :=
  broadcastTo_apply v _ (ix3 b z w) (ix3 b (0 : Fin 1) (0 : Fin 1)) (fun a => match a with
    | ⟨0, _⟩ => rfl
    | ⟨1, _⟩ => rfl
    | ⟨2, _⟩ => rfl)

/-- The top slot cut out of a block. -/
theorem slice0_apply (x : FVec Ideal S128x64x128 .f32) (b : Fin 128) (z : Fin 1) (w : Fin 128) :
    extractStridedSlice S128x1x128 ![0, 0, 0] x slices_S128x64x128_o0_0_0_S128x1x128 (ix3 b z w) = x (ix3 b 0 w) := by
  have hz : z.val < 1 := z.isLt
  exact extractStridedSlice_apply _ _ _ (ix3 b z w) (ix3 b (0 : Fin 64) w) (fun a => match a with
    | ⟨0, _⟩ => by show b.val = 0 + b.val; omega
    | ⟨1, _⟩ => by show 0 = 0 + z.val; omega
    | ⟨2, _⟩ => by show w.val = 0 + w.val; omega)

/-- The bottom slot cut out of a block. -/
theorem slice63_apply (x : FVec Ideal S128x64x128 .f32) (b : Fin 128) (z : Fin 1) (w : Fin 128) (e : Fin 64)
    (he : e.val = 63) :
    extractStridedSlice S128x1x128 ![0, 63, 0] x slices_S128x64x128_o0_63_0_S128x1x128 (ix3 b z w) = x (ix3 b e w) := by
  have hz : z.val < 1 := z.isLt
  exact extractStridedSlice_apply _ _ _ (ix3 b z w) (ix3 b e w) (fun a => match a with
    | ⟨0, _⟩ => by show b.val = 0 + b.val; omega
    | ⟨1, _⟩ => by show e.val = 63 + z.val; omega
    | ⟨2, _⟩ => by show w.val = 0 + w.val; omega)

/-- The slots between the ends cut out of a block. -/
theorem slice1_apply (x : FVec Ideal S128x64x128 .f32) (b : Fin 128) (m : Fin 62) (w : Fin 128) (d : Fin 64)
    (hd : d.val = 1 + m.val) :
    extractStridedSlice S128x62x128 ![0, 1, 0] x slices_S128x64x128_o0_1_0_S128x62x128 (ix3 b m w) = x (ix3 b d w) :=
  extractStridedSlice_apply _ _ _ (ix3 b m w) (ix3 b d w) (fun a => match a with
    | ⟨0, _⟩ => by show b.val = 0 + b.val; omega
    | ⟨1, _⟩ => by show d.val = 1 + m.val; omega
    | ⟨2, _⟩ => by show w.val = 0 + w.val; omega)

/-- The three-term sum at slot `d`: keep, push (the slot before), pop (the slot after), both around the end. -/
theorem pay16_apply (x0 : Vec Ideal S128x64x128 .f32) (L : FVec Ideal S128x3 .f32) (Z : FVec Ideal S1x3 .f32)
    (b : Fin 128) (d : Fin 64) (w : Fin 128) (e1 e2 : Fin 64)
    (h1 : e1.val = (d.val + 63) % 64) (h2 : e2.val = (d.val + 1) % 64) :
    k0_pay16 x0 L Z (ix3 b d w)
      = k0_pay10 L Z (ix2 b 2) * x0 (ix3 b d w) + k0_pay10 L Z (ix2 b 0) * x0 (ix3 b e1 w)
        + k0_pay10 L Z (ix2 b 1) * x0 (ix3 b e2 w) := by
  unfold k0_pay16
  show broadcastTo S128x64x128 (k0_pay13 L Z) broadcasts_S128x1x1_S128x64x128 (ix3 b d w) * x0 (ix3 b d w)
      + broadcastTo S128x64x128 (k0_pay11 L Z) broadcasts_S128x1x1_S128x64x128 (ix3 b d w) * k0_pay14 x0 (ix3 b d w)
      + broadcastTo S128x64x128 (k0_pay12 L Z) broadcasts_S128x1x1_S128x64x128 (ix3 b d w) * k0_pay15 x0 (ix3 b d w) = _
  rw [bcast_full, bcast_full, bcast_full, pay11_apply, pay12_apply, pay13_apply,
    pay14_apply x0 b d w e1 h1, pay15_apply x0 b d w e2 h2]

/-- The top slot: the push and keep weights gathered on the top, the pop weight on the slot after it. -/
theorem pay17_apply (x0 : Vec Ideal S128x64x128 .f32) (L : FVec Ideal S128x3 .f32) (Z : FVec Ideal S1x3 .f32)
    (b : Fin 128) (z : Fin 1) (w : Fin 128) (e : Fin 64) (he : e.val = 1) :
    k0_pay17 x0 L Z (ix3 b z w)
      = (k0_pay10 L Z (ix2 b 0) + k0_pay10 L Z (ix2 b 2)) * x0 (ix3 b 0 w) + k0_pay10 L Z (ix2 b 1) * x0 (ix3 b e w) := by
  unfold k0_pay17
  show broadcastTo S128x1x128 (addf (k0_pay11 L Z) (k0_pay13 L Z)) broadcasts_S128x1x1_S128x1x128 (ix3 b z w)
        * extractStridedSlice S128x1x128 ![0, 0, 0] x0 slices_S128x64x128_o0_0_0_S128x1x128 (ix3 b z w)
      + broadcastTo S128x1x128 (k0_pay12 L Z) broadcasts_S128x1x1_S128x1x128 (ix3 b z w)
        * extractStridedSlice S128x1x128 ![0, 0, 0] (k0_pay15 x0) slices_S128x64x128_o0_0_0_S128x1x128 (ix3 b z w) = _
  rw [bcast_row, bcast_row, slice0_apply, slice0_apply, addf_apply, pay11_apply, pay12_apply, pay13_apply,
    pay15_apply x0 b 0 w e (by rw [he]; rfl)]

/-- The pushed piece of the bottom slot: the push weight on the slot before the bottom. -/
theorem pay18_apply (x0 : Vec Ideal S128x64x128 .f32) (L : FVec Ideal S128x3 .f32) (Z : FVec Ideal S1x3 .f32)
    (b : Fin 128) (z : Fin 1) (w : Fin 128) (e : Fin 64) (he : e.val = 62) :
    k0_pay18 x0 L Z (ix3 b z w) = k0_pay10 L Z (ix2 b 0) * x0 (ix3 b e w) := by
  unfold k0_pay18
  show broadcastTo S128x1x128 (k0_pay11 L Z) broadcasts_S128x1x1_S128x1x128 (ix3 b z w)
        * extractStridedSlice S128x1x128 ![0, 63, 0] (k0_pay14 x0) slices_S128x64x128_o0_63_0_S128x1x128 (ix3 b z w) = _
  rw [bcast_row, slice63_apply (k0_pay14 x0) b z w (63 : Fin 64) rfl, pay11_apply,
    pay14_apply x0 b 63 w e (by rw [he]; rfl)]

/-- The bottom slot of the stack block. -/
theorem pay19_apply (x0 : Vec Ideal S128x64x128 .f32) (b : Fin 128) (z : Fin 1) (w : Fin 128) (e : Fin 64)
    (he : e.val = 63) : k0_pay19 x0 (ix3 b z w) = x0 (ix3 b e w) := by
  unfold k0_pay19
  exact slice63_apply x0 b z w e he

/-- The keep weight spread over the lanes of one slot. -/
theorem pay20_apply (L : FVec Ideal S128x3 .f32) (Z : FVec Ideal S1x3 .f32) (b : Fin 128) (z : Fin 1) (w : Fin 128) :
    k0_pay20 L Z (ix3 b z w) = k0_pay10 L Z (ix2 b 2) := by
  unfold k0_pay20
  rw [bcast_row, pay13_apply]

/-- The assembled block at slot 0 is the top piece. -/
theorem pay1_top (v73 : FVec Ideal S128x64x128 .f32) (v81 v84 v85 v86 : FVec Ideal S128x1x128 .f32)
    (b : Fin 128) (d : Fin 64) (w : Fin 128) (hd : d.val = 0) :
    k0_pay1 v73 v81 v84 v85 v86 (ix3 b d w) = v81 (ix3 b 0 w) := by
  unfold k0_pay1
  exact concatenate_apply_piece (1 : Fin 3) _ _ (ix3 b d w) 0 (by show 0 < 3; omega) S128x1x128 v81 rfl rfl 0 rfl
    (ix3 b (0 : Fin 1) w)
    (fun a => match a with
      | ⟨0, _⟩ => fun _ => rfl
      | ⟨1, _⟩ => fun h => absurd rfl h
      | ⟨2, _⟩ => fun _ => rfl)
    (by show 0 + 0 = d.val; omega)

/-- The assembled block at a slot between the ends is the three-term sum there. -/
theorem pay1_mid (v73 : FVec Ideal S128x64x128 .f32) (v81 v84 v85 v86 : FVec Ideal S128x1x128 .f32)
    (b : Fin 128) (d : Fin 64) (w : Fin 128) (hd1 : 1 ≤ d.val) (hd2 : d.val ≤ 62) :
    k0_pay1 v73 v81 v84 v85 v86 (ix3 b d w) = v73 (ix3 b d w) := by
  unfold k0_pay1
  refine (concatenate_apply_piece (1 : Fin 3) _ _ (ix3 b d w) 1 (by show 1 < 3; omega) S128x62x128
    (extractStridedSlice S128x62x128 ![0, 1, 0] v73 slices_S128x64x128_o0_1_0_S128x62x128) rfl rfl 1 rfl
    (ix3 b (⟨d.val - 1, by omega⟩ : Fin 62) w)
    (fun a => match a with
      | ⟨0, _⟩ => fun _ => rfl
      | ⟨1, _⟩ => fun h => absurd rfl h
      | ⟨2, _⟩ => fun _ => rfl)
    (by show 1 + (d.val - 1) = d.val; omega)).trans ?_
  exact slice1_apply v73 b ⟨d.val - 1, by omega⟩ w d (by show d.val = 1 + (d.val - 1); omega)

/-- The assembled block at slot 63 is the sum of the two bottom pieces. -/
theorem pay1_bot (v73 : FVec Ideal S128x64x128 .f32) (v81 v84 v85 v86 : FVec Ideal S128x1x128 .f32)
    (b : Fin 128) (d : Fin 64) (w : Fin 128) (hd : d.val = 63) :
    k0_pay1 v73 v81 v84 v85 v86 (ix3 b d w) = v84 (ix3 b 0 w) + v86 (ix3 b 0 w) * v85 (ix3 b 0 w) := by
  unfold k0_pay1
  exact concatenate_apply_piece (1 : Fin 3) _ _ (ix3 b d w) 2 (by show 2 < 3; omega) S128x1x128
    (addf v84 (mulf v86 v85)) rfl rfl 63 rfl
    (ix3 b (0 : Fin 1) w)
    (fun a => match a with
      | ⟨0, _⟩ => fun _ => rfl
      | ⟨1, _⟩ => fun h => absurd rfl h
      | ⟨2, _⟩ => fun _ => rfl)
    (by show 63 + 0 = d.val; omega)

/-- **The kernel's stored stack block at `(b, d, w)` is the blended stack of row `b`**, the end slots treated apart:
    the top slot is the top piece, a slot between is the three-term sum (its two rotations read the neighbours, no
    wrap-around arising there), the bottom slot is the pushed piece plus the kept bottom. -/
theorem pay_blend (x0 : Vec Ideal S128x64x128 .f32) (L : FVec Ideal S128x3 .f32) (Z : FVec Ideal S1x3 .f32)
    (b : Fin 128) (d : Fin 64) (w : Fin 128) :
    k0_pay1 (k0_pay16 x0 L Z) (k0_pay17 x0 L Z) (k0_pay18 x0 L Z) (k0_pay19 x0) (k0_pay20 L Z) (ix3 b d w)
      = blendEnds (fun a => k0_pay10 L Z (ix2 b a)) (stackRow x0 b) d w := by
  have hdlt : d.val < 64 := d.isLt
  unfold blendEnds stackRow
  by_cases h0 : d.val = 0
  · rw [if_pos h0]
    refine (pay1_top _ _ _ _ _ b d w h0).trans ?_
    exact pay17_apply x0 L Z b 0 w 1 rfl
  · rw [if_neg h0]
    by_cases h1 : d.val + 1 < 64
    · rw [dif_pos h1]
      refine (pay1_mid _ _ _ _ _ b d w (by omega) (by omega)).trans ?_
      exact pay16_apply x0 L Z b d w ⟨d.val - 1, by omega⟩ ⟨d.val + 1, h1⟩
        (by show d.val - 1 = (d.val + 63) % 64; omega) (by show d.val + 1 = (d.val + 1) % 64; omega)
    · rw [dif_neg h1]
      refine (pay1_bot _ _ _ _ _ b d w (by omega)).trans ?_
      rw [pay18_apply x0 L Z b 0 w ⟨d.val - 1, by omega⟩ (by show d.val - 1 = 62; omega),
        pay20_apply, pay19_apply x0 b 0 w d (by omega)]

end Cert.KernelIdeal.KerBlend

end
-- ==== Proof.SpecLaws.lean ====
/-
  The one law the stack cell needs beyond reordering a sum.

  The blended stack adds push, pop and keep terms in every slot; the arrangement that treats the end slots apart gathers
  the push and keep weights on the top slot first, `(p 0 + p 2) * s`. On the extended reals `(a + b) * s = a * s + b * s`
  can fail when `a` and `b` have opposite infinite signs, but a softmax never produces such a pair: its entries are
  quotients of exponentials (nonnegative) by their sum (nonnegative), hence nonnegative whenever the sum is not zero;
  and if the sum is zero every exponential is zero and every entry is the quotient `0 / 0`, which is `⊥` for all of
  them at once. In the first case the law holds for nonnegative weights; in the second both weights are `⊥` and both
  sides are `⊥ * s` added to itself, which is `⊥ * s` whatever the sign of `s`.
-/
import Mathlib.Data.EReal.Operations
import Mathlib.Data.EReal.Inv
import Mathlib.Algebra.Order.BigOperators.Group.Finset
import proofs.«407272_j37357625540657_3_alg».proof.Proof.Spec

noncomputable section

namespace StackCell

open Idealize.ShloMosaic

/-- An exponential is nonnegative, at the infinities too. -/
theorem exp_nonneg (x : EReal) : 0 ≤ Ideal.exp x := by
  induction x using EReal.rec with
  | bot => exact le_of_eq Ideal.exp_bot.symm
  | coe r => rw [Ideal.exp_coe]; exact EReal.coe_nonneg.2 (Real.exp_nonneg r)
  | top => rw [Ideal.exp_top]; exact le_top

/-- The entries of a softmax are all nonnegative, or all `⊥` (the quotient `0 / 0`, when every exponential vanishes). -/
theorem soft_sign (z : Fin 3 → EReal) : (∀ a, 0 ≤ soft z a) ∨ (∀ a, soft z a = ⊥) := by
  have he : ∀ a ∈ (Finset.univ : Finset (Fin 3)), 0 ≤ Ideal.exp (z a - rowMax z) := fun a _ => exp_nonneg _
  by_cases hS : (∑ a' : Fin 3, Ideal.exp (z a' - rowMax z)) = 0
  · right
    intro a
    have h0 : Ideal.exp (z a - rowMax z) = 0 := (Finset.sum_eq_zero_iff_of_nonneg he).1 hS a (Finset.mem_univ a)
    unfold soft
    rw [hS, h0]
    unfold Ideal.div
    rw [if_pos rfl, if_neg (lt_irrefl _)]
  · left
    intro a
    unfold soft Ideal.div
    rw [if_neg hS]
    exact EReal.mul_nonneg (exp_nonneg _) (EReal.inv_nonneg_of_nonneg (Finset.sum_nonneg he))

/-- `⊥ * s` added to itself is `⊥ * s`: it is `⊥`, `0` or `⊤` by the sign of `s`. -/
theorem bot_mul_add_self (s : EReal) : ⊥ * s + ⊥ * s = ⊥ * s := by
  rcases lt_trichotomy s 0 with h | h | h
  · rw [EReal.bot_mul_of_neg h, EReal.top_add_top]
  · rw [h, mul_zero, add_zero]
  · rw [EReal.bot_mul_of_pos h, EReal.bot_add]

/-- Two weights that are both nonnegative or both `⊥` distribute over any factor. -/
theorem add_mul_of_sign {a b : EReal} (h : (0 ≤ a ∧ 0 ≤ b) ∨ (a = ⊥ ∧ b = ⊥)) (s : EReal) :
    (a + b) * s = a * s + b * s := by
  rcases h with ⟨ha, hb⟩ | ⟨ha, hb⟩
  · exact EReal.right_distrib_of_nonneg ha hb
  · rw [ha, hb, EReal.bot_add, bot_mul_add_self]

/-- The blend with the end slots treated apart is the blend, for weights whose push and keep entries are both nonnegative
    or both `⊥`: the top slot by the law above, the bottom slot because the popped term is a product with zero, the slots
    between by reordering the sum. -/
theorem blendEnds_eq (p : Fin 3 → EReal) (hp : (0 ≤ p 0 ∧ 0 ≤ p 2) ∨ (p 0 = ⊥ ∧ p 2 = ⊥))
    (st : Fin 64 → Fin 128 → EReal) (d : Fin 64) (w : Fin 128) : blendEnds p st d w = blend p st d w := by
  obtain ⟨dv, hd⟩ := d
  unfold blendEnds blend pushed popped
  by_cases h0 : dv = 0
  · subst h0
    have h1 : (0 : Nat) + 1 < 64 := by omega
    simp only [if_pos, dif_pos h1]
    rw [add_mul_of_sign hp]
    exact add_right_comm _ _ _
  · by_cases h1 : dv + 1 < 64
    · simp only [if_neg h0, dif_pos h1]
      rw [add_comm (p 2 * _), add_assoc, add_comm (p 2 * _), ← add_assoc]
    · simp only [if_neg h0, dif_neg h1]
      rw [mul_zero, add_zero]

/-- So the new stack of a row, computed with the end slots apart, is the new stack. -/
theorem newStackEnds_eq (E : Emb) (Wm : Fin 384 → Fin 3 → EReal) (bm : Fin 3 → EReal)
    (st : Fin 64 → Fin 128 → EReal) (sp xe : Fin 128 → EReal) :
    newStackEnds E Wm bm st sp xe = newStack E Wm bm st sp xe := by
  funext d w
  unfold newStackEnds newStack probs
  refine blendEnds_eq _ ?_ st d w
  rcases soft_sign (head E Wm bm st sp xe) with h | h
  · exact .inl ⟨h 0, h 2⟩
  · exact .inr ⟨h 0, h 2⟩

/-- The same for every row of a batch. -/
theorem stackArrEnds_eq {B : Nat} (E : Emb) (Wm : Fin 384 → Fin 3 → EReal) (bm : Fin 3 → EReal)
    (S : (⟨3, ![B, 64, 128]⟩ : Shape).Idx → EReal) (sp xe : (⟨2, ![B, 128]⟩ : Shape).Idx → EReal) :
    stackArrEnds E Wm bm S sp xe = stackArr E Wm bm S sp xe := by
  funext i
  unfold stackArrEnds stackArr
  rw [newStackEnds_eq]

end StackCell

end
-- ==== Proof.KernelBlocks.lean ====
/-
  From the kernel's blocks to its four result arrays.

  The grid has 64 points; point `t` works on batch rows `128 t … 128 t + 127`: the stack, state and input-embedding
  windows and the four result windows all move with `t` along the batch axis and nowhere else, while the weights and
  biases are staged whole once. So the block of an input at point `t` is rows `128 t + b` of its array, the weights'
  blocks are the arrays, and what the body leaves in a result block — a function of the block's rows one by one — is the
  same function of rows `128 t + b` of the arrays. The 64 blocks tile each result array, so after the run each result
  array is that row-by-row function of the argument arrays.

  The weights reach the kernel through a change of float format made once outside the grid; on the extended reals that
  change is the identity, so the staged weights are the argument weights.
-/
import proofs.«407272_j37357625540657_3_alg».proof.Proof.Gen.KernelIdeal.Value
import proofs.«407272_j37357625540657_3_alg».proof.Proof.KernelHeads
import proofs.«407272_j37357625540657_3_alg».proof.Proof.KernelBlend
import proofs.«407272_j37357625540657_3_alg».proof.Proof.SpecLaws
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Idealize.ShloMosaic.ValueIdx StackCell

variable (m : (ℓ : Loc nD τ sig) → Buf (Elt Ideal) ℓ) (ρ : Dev nD → PrngReg)

/-! ## The index maps, decided over the 64 points -/

/-- The windows that move with the grid sit at block `t` along the batch axis and at block 0 on every other axis. -/
theorem idx_rows : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 3) = t.val ∧ win0_13.index t (1 : Fin 3) = 0 ∧ win0_13.index t (2 : Fin 3) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- The weight and bias windows sit at block 0 at every point. -/
theorem idx_whole : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0
    ∧ win0_9.index t (0 : Fin 2) = 0 ∧ win0_9.index t (1 : Fin 2) = 0 ∧ win0_10.index t (0 : Fin 1) = 0
    ∧ win0_11.index t (0 : Fin 2) = 0 ∧ win0_11.index t (1 : Fin 2) = 0 ∧ win0_12.index t (0 : Fin 1) = 0 :=
  (by decide +kernel : ∀ t : Fin grid0.N, _)

/-- Row `b` of point `t`'s block is row `128 t + b` of the batch. -/
def rowAt (t : Fin cfg0.N) (b : Fin 128) : Fin 8192 :=
  ⟨t.val * 128 + b.val, by have h : t.val < 64 := t.isLt; have := b.isLt; omega⟩

/-! ## The input blocks as rows of the arrays -/

/-- A row of the stack block is that row of the stack. -/
theorem stackRow_blk (c : Dev nD) (t : Fin cfg0.N) (b : Fin 128) :
    stackRow (iblk m c 0 t : Vec Ideal S128x64x128 .f32) b
      = stackRow (m ((c : Thread nD τ).loc main_arg0) : S8192x64x128.Idx → EReal) (rowAt t b) := by
  obtain ⟨e0, e1, e2, -⟩ := idx_rows t
  funext d w
  unfold stackRow iblk
  rw [View.read_apply]
  show V m c main_arg0 _ = m (c.tc.loc main_arg0) _
  rw [V_main_arg0]
  congr 1
  funext a
  apply Fin.ext
  match a with
  | ⟨0, _⟩ => show win0_0.index t (0 : Fin 3) * 128 + 1 * b.val = t.val * 128 + b.val; rw [e0]; omega
  | ⟨1, _⟩ => show win0_0.index t (1 : Fin 3) * 64 + 1 * d.val = d.val; rw [e1]; omega
  | ⟨2, _⟩ => show win0_0.index t (2 : Fin 3) * 128 + 1 * w.val = w.val; rw [e2]; omega

/-- A row of the state block is that row of the previous states. -/
theorem mat_blk1 (c : Dev nD) (t : Fin cfg0.N) (b : Fin 128) :
    mat (iblk m c 1 t : Vec Ideal S128x128 .f32) b
      = mat (m ((c : Thread nD τ).loc main_arg1) : S8192x128.Idx → EReal) (rowAt t b) := by
  obtain ⟨-, -, -, e0, e1, -⟩ := idx_rows t
  funext k
  unfold mat iblk
  rw [View.read_apply]
  show V m c main_arg1 _ = m (c.tc.loc main_arg1) _
  rw [V_main_arg1]
  congr 1
  funext a
  apply Fin.ext
  match a with
  | ⟨0, _⟩ => show win0_1.index t (0 : Fin 2) * 128 + 1 * b.val = t.val * 128 + b.val; rw [e0]; omega
  | ⟨1, _⟩ => show win0_1.index t (1 : Fin 2) * 128 + 1 * k.val = k.val; rw [e1]; omega

/-- A row of the input-embedding block is that row of the input embeddings. -/
theorem mat_blk2 (c : Dev nD) (t : Fin cfg0.N) (b : Fin 128) :
    mat (iblk m c 2 t : Vec Ideal S128x128 .f32) b
      = mat (m ((c : Thread nD τ).loc main_arg2) : S8192x128.Idx → EReal) (rowAt t b) := by
  obtain ⟨-, -, -, -, -, e0, e1, -⟩ := idx_rows t
  funext k
  unfold mat iblk
  rw [View.read_apply]
  show V m c main_arg2 _ = m (c.tc.loc main_arg2) _
  rw [V_main_arg2]
  congr 1
  funext a
  apply Fin.ext
  match a with
  | ⟨0, _⟩ => show win0_2.index t (0 : Fin 2) * 128 + 1 * b.val = t.val * 128 + b.val; rw [e0]; omega
  | ⟨1, _⟩ => show win0_2.index t (1 : Fin 2) * 128 + 1 * k.val = k.val; rw [e1]; omega

/-! ## The weights: staged whole, through a change of format that is the identity -/

theorem V_main_v0 (c : Dev nD) : (V m c main_v0 : S128x128.Idx → EReal) = (m ((c : Thread nD τ).loc main_arg3) : S128x128.Idx → EReal) := by
  dsimp only [Gen.V, Gen.hostOps0]; after_results; rfl
theorem V_main_v1 (c : Dev nD) : (V m c main_v1 : S128x128.Idx → EReal) = (m ((c : Thread nD τ).loc main_arg5) : S128x128.Idx → EReal) := by
  dsimp only [Gen.V, Gen.hostOps0]; after_results; rfl
theorem V_main_v2 (c : Dev nD) : (V m c main_v2 : S384x3.Idx → EReal) = (m ((c : Thread nD τ).loc main_arg7) : S384x3.Idx → EReal) := by
  dsimp only [Gen.V, Gen.hostOps0]; after_results; rfl
theorem V_main_v3 (c : Dev nD) : (V m c main_v3 : S384x128.Idx → EReal) = (m ((c : Thread nD τ).loc main_arg9) : S384x128.Idx → EReal) := by
  dsimp only [Gen.V, Gen.hostOps0]; after_results; rfl
theorem V_main_v4 (c : Dev nD) : (V m c main_v4 : S384x128.Idx → EReal) = (m ((c : Thread nD τ).loc main_arg11) : S384x128.Idx → EReal) := by
  dsimp only [Gen.V, Gen.hostOps0]; after_results; rfl

/-- Each weight or bias block is its whole argument array, at every point. -/
theorem blk3 (c : Dev nD) (t : Fin cfg0.N) :
    (iblk m c 3 t : Vec Ideal S128x128 .bf16) = (m ((c : Thread nD τ).loc main_arg3) : S128x128.Idx → EReal) := by
  obtain ⟨e0, e1, -, -, -, -, -, -, -, -, -, -, -, -, -⟩ := idx_whole t
  funext y
  unfold iblk
  rw [View.read_apply]
  show V m c main_v0 _ = _
  rw [V_main_v0]
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega
theorem blk4 (c : Dev nD) (t : Fin cfg0.N) :
    (iblk m c 4 t : Vec Ideal S128 .f32) = (m ((c : Thread nD τ).loc main_arg4) : S128.Idx → EReal) := by
  obtain ⟨-, -, e0, -, -, -, -, -, -, -, -, -, -, -, -⟩ := idx_whole t
  funext y
  unfold iblk
  rw [View.read_apply]
  show V m c main_arg4 _ = _
  rw [V_main_arg4]
  congr 1
  funext a
  apply Fin.ext
  match a with
  | ⟨0, _⟩ => show win0_4.index t (0 : Fin 1) * 128 + 1 * (y 0).val = (y 0).val; rw [e0]; omega
theorem blk5 (c : Dev nD) (t : Fin cfg0.N) :
    (iblk m c 5 t : Vec Ideal S128x128 .bf16) = (m ((c : Thread nD τ).loc main_arg5) : S128x128.Idx → EReal) := by
  obtain ⟨-, -, -, e0, e1, -, -, -, -, -, -, -, -, -, -⟩ := idx_whole t
  funext y
  unfold iblk
  rw [View.read_apply]
  show V m c main_v1 _ = _
  rw [V_main_v1]
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega
theorem blk6 (c : Dev nD) (t : Fin cfg0.N) :
    (iblk m c 6 t : Vec Ideal S128 .f32) = (m ((c : Thread nD τ).loc main_arg6) : S128.Idx → EReal) := by
  obtain ⟨-, -, -, -, -, e0, -, -, -, -, -, -, -, -, -⟩ := idx_whole t
  funext y
  unfold iblk
  rw [View.read_apply]
  show V m c main_arg6 _ = _
  rw [V_main_arg6]
  congr 1
  funext a
  apply Fin.ext
  match a with
  | ⟨0, _⟩ => show win0_6.index t (0 : Fin 1) * 128 + 1 * (y 0).val = (y 0).val; rw [e0]; omega
theorem blk7 (c : Dev nD) (t : Fin cfg0.N) :
    (iblk m c 7 t : Vec Ideal S384x3 .bf16) = (m ((c : Thread nD τ).loc main_arg7) : S384x3.Idx → EReal) := by
  obtain ⟨-, -, -, -, -, -, e0, e1, -, -, -, -, -, -, -⟩ := idx_whole t
  funext y
  unfold iblk
  rw [View.read_apply]
  show V m c main_v2 _ = _
  rw [V_main_v2]
  congr 1
  funext a
  apply Fin.ext
  match a with
  | ⟨0, _⟩ => show win0_7.index t (0 : Fin 2) * 384 + 1 * (y 0).val = (y 0).val; rw [e0]; omega
  | ⟨1, _⟩ => show win0_7.index t (1 : Fin 2) * 3 + 1 * (y 1).val = (y 1).val; rw [e1]; omega
theorem blk8 (c : Dev nD) (t : Fin cfg0.N) :
    (iblk m c 8 t : Vec Ideal S3 .f32) = (m ((c : Thread nD τ).loc main_arg8) : S3.Idx → EReal) := by
  obtain ⟨-, -, -, -, -, -, -, -, e0, -, -, -, -, -, -⟩ := idx_whole t
  funext y
  unfold iblk
  rw [View.read_apply]
  show V m c main_arg8 _ = _
  rw [V_main_arg8]
  congr 1
  funext a
  apply Fin.ext
  match a with
  | ⟨0, _⟩ => show win0_8.index t (0 : Fin 1) * 3 + 1 * (y 0).val = (y 0).val; rw [e0]; omega
theorem blk9 (c : Dev nD) (t : Fin cfg0.N) :
    (iblk m c 9 t : Vec Ideal S384x128 .bf16) = (m ((c : Thread nD τ).loc main_arg9) : S384x128.Idx → EReal) := by
  obtain ⟨-, -, -, -, -, -, -, -, -, e0, e1, -, -, -, -⟩ := idx_whole t
  funext y
  unfold iblk
  rw [View.read_apply]
  show V m c main_v3 _ = _
  rw [V_main_v3]
  congr 1
  funext a
  apply Fin.ext
  match a with
  | ⟨0, _⟩ => show win0_9.index t (0 : Fin 2) * 384 + 1 * (y 0).val = (y 0).val; rw [e0]; omega
  | ⟨1, _⟩ => show win0_9.index t (1 : Fin 2) * 128 + 1 * (y 1).val = (y 1).val; rw [e1]; omega
theorem blk10 (c : Dev nD) (t : Fin cfg0.N) :
    (iblk m c 10 t : Vec Ideal S128 .f32) = (m ((c : Thread nD τ).loc main_arg10) : S128.Idx → EReal) := by
  obtain ⟨-, -, -, -, -, -, -, -, -, -, -, e0, -, -, -⟩ := idx_whole t
  funext y
  unfold iblk
  rw [View.read_apply]
  show V m c main_arg10 _ = _
  rw [V_main_arg10]
  congr 1
  funext a
  apply Fin.ext
  match a with
  | ⟨0, _⟩ => show win0_10.index t (0 : Fin 1) * 128 + 1 * (y 0).val = (y 0).val; rw [e0]; omega
theorem blk11 (c : Dev nD) (t : Fin cfg0.N) :
    (iblk m c 11 t : Vec Ideal S384x128 .bf16) = (m ((c : Thread nD τ).loc main_arg11) : S384x128.Idx → EReal) := by
  obtain ⟨-, -, -, -, -, -, -, -, -, -, -, -, e0, e1, -⟩ := idx_whole t
  funext y
  unfold iblk
  rw [View.read_apply]
  show V m c main_v4 _ = _
  rw [V_main_v4]
  congr 1
  funext a
  apply Fin.ext
  match a with
  | ⟨0, _⟩ => show win0_11.index t (0 : Fin 2) * 384 + 1 * (y 0).val = (y 0).val; rw [e0]; omega
  | ⟨1, _⟩ => show win0_11.index t (1 : Fin 2) * 128 + 1 * (y 1).val = (y 1).val; rw [e1]; omega
theorem blk12 (c : Dev nD) (t : Fin cfg0.N) :
    (iblk m c 12 t : Vec Ideal S128 .f32) = (m ((c : Thread nD τ).loc main_arg12) : S128.Idx → EReal) := by
  obtain ⟨-, -, -, -, -, -, -, -, -, -, -, -, -, -, e0⟩ := idx_whole t
  funext y
  unfold iblk
  rw [View.read_apply]
  show V m c main_arg12 _ = _
  rw [V_main_arg12]
  congr 1
  funext a
  apply Fin.ext
  match a with
  | ⟨0, _⟩ => show win0_12.index t (0 : Fin 1) * 128 + 1 * (y 0).val = (y 0).val; rw [e0]; omega

/-! ## What each point writes back -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A row function at equal rows. -/
theorem rows_congr {α β : Type} (f : (Fin 64 → Fin 128 → EReal) → (Fin 128 → EReal) → (Fin 128 → EReal) → α → β)
    {st st' : Fin 64 → Fin 128 → EReal} {sp sp' xe xe' : Fin 128 → EReal} (h0 : st = st') (h1 : sp = sp') (h2 : xe = xe') (a : α) :
    f st sp xe a = f st' sp' xe' a := by subst h0 h1 h2; rfl

/-- The embedding weights, from the argument arrays. -/
abbrev argE (c : Dev nD) : Emb :=
  embOf (m ((c : Thread nD τ).loc main_arg3)) (m ((c : Thread nD τ).loc main_arg4)) (m ((c : Thread nD τ).loc main_arg5)) (m ((c : Thread nD τ).loc main_arg6))

/-- The action probabilities of the whole batch, from the argument arrays. -/
abbrev probsOf (c : Dev nD) : S8192x3.Idx → EReal :=
  probsArr (B := 8192) (argE m c) (mat (m ((c : Thread nD τ).loc main_arg7))) (vec (m ((c : Thread nD τ).loc main_arg8)))
    (m ((c : Thread nD τ).loc main_arg0)) (m ((c : Thread nD τ).loc main_arg1)) (m ((c : Thread nD τ).loc main_arg2))

/-- Point `t` writes back block `t` of the batch's action probabilities. -/
theorem flushed16_eq (c : Dev nD) (t : Fin cfg0.N) :
    (dats m 0 c).flushed 16 t = ((cfg0.win 16).blk t).view.read (Elt Ideal) (probsOf m c) := by
  rw [flushed16]
  unfold out0_16
  rw [View.canon_unit_zero hz2]
  simp only [View.ld_unit_zero (S := S128x64x128) hz3, View.ld_unit_zero (S := S128x128) hz2, View.ld_unit_zero (S := S128) hz1, View.ld_unit_zero (S := S384x3) hz2, View.ld_unit_zero (S := S3) hz1, View.ld_unit_zero (S := S384x128) hz2]
  rw [KerValue.pay_probs (iblk m c 0 t) (iblk m c 1 t) (iblk m c 2 t) (iblk m c 3 t) (iblk m c 4 t) (iblk m c 5 t) (iblk m c 6 t) (iblk m c 7 t) (iblk m c 8 t)]
  rw [blk3, blk4, blk5, blk6, blk7, blk8]
  obtain ⟨-, -, -, -, -, -, -, -, -, -, -, -, -, -, e0, e1⟩ := idx_rows t
  funext j
  have he : ((cfg0.win 16).blk t).view.emb j = ix2 (rowAt t (j 0)) (j 1) := by
    funext a
    apply Fin.ext
    match a with
    | ⟨0, _⟩ => show win0_16.index t (0 : Fin 2) * 128 + 1 * (j 0).val = t.val * 128 + (j 0).val; rw [e0]; omega
    | ⟨1, _⟩ => show win0_16.index t (1 : Fin 2) * 3 + 1 * (j 1).val = (j 1).val; rw [e1]; omega
  show probs _ _ _ (stackRow (iblk m c 0 t) (j 0)) (mat (iblk m c 1 t) (j 0)) (mat (iblk m c 2 t) (j 0)) (j 1)
    = probsOf m c (((cfg0.win 16).blk t).view.emb j)
  refine (rows_congr (probs _ _ _) (stackRow_blk m c t (j 0)) (mat_blk1 m c t (j 0)) (mat_blk2 m c t (j 0)) (j 1)).trans ?_
  exact (congrArg (probsOf m c) he).symm

/-- The next states of the whole batch, from the argument arrays. -/
abbrev stateOf (c : Dev nD) : S8192x128.Idx → EReal :=
  stateArr (B := 8192) (argE m c) (mat (m ((c : Thread nD τ).loc main_arg11))) (vec (m ((c : Thread nD τ).loc main_arg12)))
    (m ((c : Thread nD τ).loc main_arg0)) (m ((c : Thread nD τ).loc main_arg1)) (m ((c : Thread nD τ).loc main_arg2))

/-- The buffer logits of the whole batch, from the argument arrays. -/
abbrev bufOf (c : Dev nD) : S8192x128.Idx → EReal :=
  headArr (B := 8192) (argE m c) (mat (m ((c : Thread nD τ).loc main_arg9))) (vec (m ((c : Thread nD τ).loc main_arg10)))
    (m ((c : Thread nD τ).loc main_arg0)) (m ((c : Thread nD τ).loc main_arg1)) (m ((c : Thread nD τ).loc main_arg2))

/-- The new stacks of the whole batch, from the argument arrays. -/
abbrev stackOf (c : Dev nD) : S8192x64x128.Idx → EReal :=
  stackArr (B := 8192) (argE m c) (mat (m ((c : Thread nD τ).loc main_arg7))) (vec (m ((c : Thread nD τ).loc main_arg8)))
    (m ((c : Thread nD τ).loc main_arg0)) (m ((c : Thread nD τ).loc main_arg1)) (m ((c : Thread nD τ).loc main_arg2))

/-- Point `t` writes back block `t` of the batch's next states. -/
theorem flushed14_eq (c : Dev nD) (t : Fin cfg0.N) :
    (dats m 0 c).flushed 14 t = ((cfg0.win 14).blk t).view.read (Elt Ideal) (stateOf m c) := by
  rw [flushed14]
  unfold out0_14
  rw [View.canon_unit_zero hz2]
  simp only [View.ld_unit_zero (S := S128x64x128) hz3, View.ld_unit_zero (S := S128x128) hz2, View.ld_unit_zero (S := S128) hz1, View.ld_unit_zero (S := S384x3) hz2, View.ld_unit_zero (S := S3) hz1, View.ld_unit_zero (S := S384x128) hz2]
  rw [KerValue.pay_state (iblk m c 0 t) (iblk m c 1 t) (iblk m c 2 t) (iblk m c 3 t) (iblk m c 4 t) (iblk m c 5 t) (iblk m c 6 t) (iblk m c 11 t) (iblk m c 12 t)]
  rw [blk3, blk4, blk5, blk6, blk11, blk12]
  obtain ⟨-, -, -, -, -, -, -, -, -, -, e0, e1, -⟩ := idx_rows t
  funext j
  have he : ((cfg0.win 14).blk t).view.emb j = ix2 (rowAt t (j 0)) (j 1) := by
    funext a
    apply Fin.ext
    match a with
    | ⟨0, _⟩ => show win0_14.index t (0 : Fin 2) * 128 + 1 * (j 0).val = t.val * 128 + (j 0).val; rw [e0]; omega
    | ⟨1, _⟩ => show win0_14.index t (1 : Fin 2) * 128 + 1 * (j 1).val = (j 1).val; rw [e1]; omega
  show nextState _ _ _ (stackRow (iblk m c 0 t) (j 0)) (mat (iblk m c 1 t) (j 0)) (mat (iblk m c 2 t) (j 0)) (j 1)
    = stateOf m c (((cfg0.win 14).blk t).view.emb j)
  refine (rows_congr (nextState _ _ _) (stackRow_blk m c t (j 0)) (mat_blk1 m c t (j 0)) (mat_blk2 m c t (j 0)) (j 1)).trans ?_
  exact (congrArg (stateOf m c) he).symm

/-- Point `t` writes back block `t` of the batch's buffer logits. -/
theorem flushed15_eq (c : Dev nD) (t : Fin cfg0.N) :
    (dats m 0 c).flushed 15 t = ((cfg0.win 15).blk t).view.read (Elt Ideal) (bufOf m c) := by
  rw [flushed15]
  unfold out0_15
  rw [View.canon_unit_zero hz2]
  simp only [View.ld_unit_zero (S := S128x64x128) hz3, View.ld_unit_zero (S := S128x128) hz2, View.ld_unit_zero (S := S128) hz1, View.ld_unit_zero (S := S384x3) hz2, View.ld_unit_zero (S := S3) hz1, View.ld_unit_zero (S := S384x128) hz2]
  rw [KerValue.pay_buf (iblk m c 0 t) (iblk m c 1 t) (iblk m c 2 t) (iblk m c 3 t) (iblk m c 4 t) (iblk m c 5 t) (iblk m c 6 t) (iblk m c 9 t) (iblk m c 10 t)]
  rw [blk3, blk4, blk5, blk6, blk9, blk10]
  obtain ⟨-, -, -, -, -, -, -, -, -, -, -, -, e0, e1, -⟩ := idx_rows t
  funext j
  have he : ((cfg0.win 15).blk t).view.emb j = ix2 (rowAt t (j 0)) (j 1) := by
    funext a
    apply Fin.ext
    match a with
    | ⟨0, _⟩ => show win0_15.index t (0 : Fin 2) * 128 + 1 * (j 0).val = t.val * 128 + (j 0).val; rw [e0]; omega
    | ⟨1, _⟩ => show win0_15.index t (1 : Fin 2) * 128 + 1 * (j 1).val = (j 1).val; rw [e1]; omega
  show head _ _ _ (stackRow (iblk m c 0 t) (j 0)) (mat (iblk m c 1 t) (j 0)) (mat (iblk m c 2 t) (j 0)) (j 1)
    = bufOf m c (((cfg0.win 15).blk t).view.emb j)
  refine (rows_congr (head _ _ _) (stackRow_blk m c t (j 0)) (mat_blk1 m c t (j 0)) (mat_blk2 m c t (j 0)) (j 1)).trans ?_
  exact (congrArg (bufOf m c) he).symm

/-- The stack payload of a block: the blend with the end slots apart, weighted by the block's own action probabilities. -/
theorem pay_stack (x0 : Vec Ideal S128x64x128 .f32) (x1 x2 : Vec Ideal S128x128 .f32) (x3 : Vec Ideal S128x128 .bf16) (x4 : Vec Ideal S128 .f32)
    (x5 : Vec Ideal S128x128 .bf16) (x6 : Vec Ideal S128 .f32) (x7 : Vec Ideal S384x3 .bf16) (x8 : Vec Ideal S3 .f32) :
    k0_pay1 (k0_pay16 x0 (k0_pay6 x0 x1 x2 x3 x4 x5 x6 x7) (k0_pay7 x8)) (k0_pay17 x0 (k0_pay6 x0 x1 x2 x3 x4 x5 x6 x7) (k0_pay7 x8))
        (k0_pay18 x0 (k0_pay6 x0 x1 x2 x3 x4 x5 x6 x7) (k0_pay7 x8)) (k0_pay19 x0) (k0_pay20 (k0_pay6 x0 x1 x2 x3 x4 x5 x6 x7) (k0_pay7 x8))
      = stackArrEnds (B := 128) (embOf x3 x4 x5 x6) (mat x7) (vec x8) x0 x1 x2 := by
  funext i
  obtain ⟨b, d, w, rfl⟩ : ∃ (b : Fin 128) (d : Fin 64) (w : Fin 128), i = ix3 b d w := ⟨i 0, i 1, i 2, eq_ix3 i⟩
  rw [KerBlend.pay_blend, KerValue.pay_probs]
  rfl

/-- Point `t` writes back block `t` of the batch's new stacks. -/
theorem flushed13_eq (c : Dev nD) (t : Fin cfg0.N) :
    (dats m 0 c).flushed 13 t = ((cfg0.win 13).blk t).view.read (Elt Ideal) (stackOf m c) := by
  rw [flushed13]
  unfold out0_13
  rw [View.canon_unit_zero hz3]
  simp only [View.ld_unit_zero (S := S128x64x128) hz3, View.ld_unit_zero (S := S128x128) hz2, View.ld_unit_zero (S := S128) hz1, View.ld_unit_zero (S := S384x3) hz2, View.ld_unit_zero (S := S3) hz1, View.ld_unit_zero (S := S384x128) hz2]
  rw [pay_stack (iblk m c 0 t) (iblk m c 1 t) (iblk m c 2 t) (iblk m c 3 t) (iblk m c 4 t) (iblk m c 5 t) (iblk m c 6 t) (iblk m c 7 t) (iblk m c 8 t)]
  rw [blk3, blk4, blk5, blk6, blk7, blk8]
  obtain ⟨-, -, -, -, -, -, -, e0, e1, e2, -⟩ := idx_rows t
  funext j
  have he : ((cfg0.win 13).blk t).view.emb j = ix3 (rowAt t (j 0)) (j 1) (j 2) := by
    funext a
    apply Fin.ext
    match a with
    | ⟨0, _⟩ => show win0_13.index t (0 : Fin 3) * 128 + 1 * (j 0).val = t.val * 128 + (j 0).val; rw [e0]; omega
    | ⟨1, _⟩ => show win0_13.index t (1 : Fin 3) * 64 + 1 * (j 1).val = (j 1).val; rw [e1]; omega
    | ⟨2, _⟩ => show win0_13.index t (2 : Fin 3) * 128 + 1 * (j 2).val = (j 2).val; rw [e2]; omega
  show newStackEnds _ _ _ (stackRow (iblk m c 0 t) (j 0)) (mat (iblk m c 1 t) (j 0)) (mat (iblk m c 2 t) (j 0)) (j 1) (j 2)
    = stackOf m c (((cfg0.win 13).blk t).view.emb j)
  refine (congrFun (rows_congr (newStackEnds _ _ _) (stackRow_blk m c t (j 0)) (mat_blk1 m c t (j 0)) (mat_blk2 m c t (j 0)) (j 1)) (j 2)).trans ?_
  rw [newStackEnds_eq]
  exact (congrArg (stackOf m c) he).symm

/-! ## The 64 blocks tile each result array -/

/-- An index is in point `t`'s block of result window 13 iff each coordinate is in the block's range. -/
theorem mem_blk13 (t : Fin cfg0.N) (i : S8192x64x128.Idx) :
    i ∈ ((cfg0.win 13).blk t).view.set ↔ ∀ a : Fin 3, win0_13.index t a * S128x64x128.size a ≤ (i a).val ∧ (i a).val < win0_13.index t a * S128x64x128.size a + S128x64x128.size a := by
  show i ∈ ((View.whole main_v5_0).slice (win0_13.rect t)).set ↔ _
  rw [View.set_slice_whole, Rect.mem_set_unit]
  exact Iff.rfl

/-- Every index of result window 13's array is in the block of the point its batch row belongs to. -/
theorem cover13 (i : S8192x64x128.Idx) : ∃ t : Fin cfg0.N, (cfg0.win 13).flush t = true ∧ i ∈ ((cfg0.win 13).blk t).view.set := by
  have h0 : (i 0).val < 8192 := (i 0).isLt
  have h1 : (i 1).val < 64 := (i 1).isLt
  have h2 : (i 2).val < 128 := (i 2).isLt
  have ht : (i 0).val / 128 < cfg0.N := by show (i 0).val / 128 < 64; omega
  obtain ⟨-, -, -, -, -, -, -, e0, e1, e2, -, -, -, -, -, -⟩ := idx_rows ⟨(i 0).val / 128, ht⟩
  refine ⟨⟨(i 0).val / 128, ht⟩, flush0_13 _, ?_⟩
  rw [mem_blk13]
  intro a
  match a with
  | ⟨0, _⟩ => show win0_13.index ⟨(i 0).val / 128, ht⟩ (0 : Fin 3) * 128 ≤ (i 0).val ∧ (i 0).val < win0_13.index ⟨(i 0).val / 128, ht⟩ (0 : Fin 3) * 128 + 128; rw [e0]; show (i 0).val / 128 * 128 ≤ (i 0).val ∧ (i 0).val < (i 0).val / 128 * 128 + 128; omega
  | ⟨1, _⟩ => show win0_13.index ⟨(i 0).val / 128, ht⟩ (1 : Fin 3) * 64 ≤ (i 1).val ∧ (i 1).val < win0_13.index ⟨(i 0).val / 128, ht⟩ (1 : Fin 3) * 64 + 64; rw [e1]; omega
  | ⟨2, _⟩ => show win0_13.index ⟨(i 0).val / 128, ht⟩ (2 : Fin 3) * 128 ≤ (i 2).val ∧ (i 2).val < win0_13.index ⟨(i 0).val / 128, ht⟩ (2 : Fin 3) * 128 + 128; rw [e2]; omega

/-- So after the run result window 13's array is the batch's function of the argument arrays. -/
theorem final13 (c : Dev nD) : (dats m 0 c).arrAt 13 cfg0.N = stackOf m c :=
  (dats m 0 c).arrAt_eq_of_cover 13 (stackOf m c) (fun t _ => flushed13_eq m c t) cover13

/-- An index is in point `t`'s block of result window 14 iff each coordinate is in the block's range. -/
theorem mem_blk14 (t : Fin cfg0.N) (i : S8192x128.Idx) :
    i ∈ ((cfg0.win 14).blk t).view.set ↔ ∀ a : Fin 2, win0_14.index t a * S128x128.size a ≤ (i a).val ∧ (i a).val < win0_14.index t a * S128x128.size a + S128x128.size a := by
  show i ∈ ((View.whole main_v5_1).slice (win0_14.rect t)).set ↔ _
  rw [View.set_slice_whole, Rect.mem_set_unit]
  exact Iff.rfl

/-- Every index of result window 14's array is in the block of the point its batch row belongs to. -/
theorem cover14 (i : S8192x128.Idx) : ∃ t : Fin cfg0.N, (cfg0.win 14).flush t = true ∧ i ∈ ((cfg0.win 14).blk t).view.set := by
  have h0 : (i 0).val < 8192 := (i 0).isLt
  have h1 : (i 1).val < 128 := (i 1).isLt
  have ht : (i 0).val / 128 < cfg0.N := by show (i 0).val / 128 < 64; omega
  obtain ⟨-, -, -, -, -, -, -, -, -, -, e0, e1, -, -, -, -⟩ := idx_rows ⟨(i 0).val / 128, ht⟩
  refine ⟨⟨(i 0).val / 128, ht⟩, flush0_14 _, ?_⟩
  rw [mem_blk14]
  intro a
  match a with
  | ⟨0, _⟩ => show win0_14.index ⟨(i 0).val / 128, ht⟩ (0 : Fin 2) * 128 ≤ (i 0).val ∧ (i 0).val < win0_14.index ⟨(i 0).val / 128, ht⟩ (0 : Fin 2) * 128 + 128; rw [e0]; show (i 0).val / 128 * 128 ≤ (i 0).val ∧ (i 0).val < (i 0).val / 128 * 128 + 128; omega
  | ⟨1, _⟩ => show win0_14.index ⟨(i 0).val / 128, ht⟩ (1 : Fin 2) * 128 ≤ (i 1).val ∧ (i 1).val < win0_14.index ⟨(i 0).val / 128, ht⟩ (1 : Fin 2) * 128 + 128; rw [e1]; omega

/-- So after the run result window 14's array is the batch's function of the argument arrays. -/
theorem final14 (c : Dev nD) : (dats m 0 c).arrAt 14 cfg0.N = stateOf m c :=
  (dats m 0 c).arrAt_eq_of_cover 14 (stateOf m c) (fun t _ => flushed14_eq m c t) cover14

/-- An index is in point `t`'s block of result window 15 iff each coordinate is in the block's range. -/
theorem mem_blk15 (t : Fin cfg0.N) (i : S8192x128.Idx) :
    i ∈ ((cfg0.win 15).blk t).view.set ↔ ∀ a : Fin 2, win0_15.index t a * S128x128.size a ≤ (i a).val ∧ (i a).val < win0_15.index t a * S128x128.size a + S128x128.size a := by
  show i ∈ ((View.whole main_v5_2).slice (win0_15.rect t)).set ↔ _
  rw [View.set_slice_whole, Rect.mem_set_unit]
  exact Iff.rfl

/-- Every index of result window 15's array is in the block of the point its batch row belongs to. -/
theorem cover15 (i : S8192x128.Idx) : ∃ t : Fin cfg0.N, (cfg0.win 15).flush t = true ∧ i ∈ ((cfg0.win 15).blk t).view.set := by
  have h0 : (i 0).val < 8192 := (i 0).isLt
  have h1 : (i 1).val < 128 := (i 1).isLt
  have ht : (i 0).val / 128 < cfg0.N := by show (i 0).val / 128 < 64; omega
  obtain ⟨-, -, -, -, -, -, -, -, -, -, -, -, e0, e1, -, -⟩ := idx_rows ⟨(i 0).val / 128, ht⟩
  refine ⟨⟨(i 0).val / 128, ht⟩, flush0_15 _, ?_⟩
  rw [mem_blk15]
  intro a
  match a with
  | ⟨0, _⟩ => show win0_15.index ⟨(i 0).val / 128, ht⟩ (0 : Fin 2) * 128 ≤ (i 0).val ∧ (i 0).val < win0_15.index ⟨(i 0).val / 128, ht⟩ (0 : Fin 2) * 128 + 128; rw [e0]; show (i 0).val / 128 * 128 ≤ (i 0).val ∧ (i 0).val < (i 0).val / 128 * 128 + 128; omega
  | ⟨1, _⟩ => show win0_15.index ⟨(i 0).val / 128, ht⟩ (1 : Fin 2) * 128 ≤ (i 1).val ∧ (i 1).val < win0_15.index ⟨(i 0).val / 128, ht⟩ (1 : Fin 2) * 128 + 128; rw [e1]; omega

/-- So after the run result window 15's array is the batch's function of the argument arrays. -/
theorem final15 (c : Dev nD) : (dats m 0 c).arrAt 15 cfg0.N = bufOf m c :=
  (dats m 0 c).arrAt_eq_of_cover 15 (bufOf m c) (fun t _ => flushed15_eq m c t) cover15

/-- An index is in point `t`'s block of result window 16 iff each coordinate is in the block's range. -/
theorem mem_blk16 (t : Fin cfg0.N) (i : S8192x3.Idx) :
    i ∈ ((cfg0.win 16).blk t).view.set ↔ ∀ a : Fin 2, win0_16.index t a * S128x3.size a ≤ (i a).val ∧ (i a).val < win0_16.index t a * S128x3.size a + S128x3.size a := by
  show i ∈ ((View.whole main_v5_3).slice (win0_16.rect t)).set ↔ _
  rw [View.set_slice_whole, Rect.mem_set_unit]
  exact Iff.rfl

/-- Every index of result window 16's array is in the block of the point its batch row belongs to. -/
theorem cover16 (i : S8192x3.Idx) : ∃ t : Fin cfg0.N, (cfg0.win 16).flush t = true ∧ i ∈ ((cfg0.win 16).blk t).view.set := by
  have h0 : (i 0).val < 8192 := (i 0).isLt
  have h1 : (i 1).val < 3 := (i 1).isLt
  have ht : (i 0).val / 128 < cfg0.N := by show (i 0).val / 128 < 64; omega
  obtain ⟨-, -, -, -, -, -, -, -, -, -, -, -, -, -, e0, e1⟩ := idx_rows ⟨(i 0).val / 128, ht⟩
  refine ⟨⟨(i 0).val / 128, ht⟩, flush0_16 _, ?_⟩
  rw [mem_blk16]
  intro a
  match a with
  | ⟨0, _⟩ => show win0_16.index ⟨(i 0).val / 128, ht⟩ (0 : Fin 2) * 128 ≤ (i 0).val ∧ (i 0).val < win0_16.index ⟨(i 0).val / 128, ht⟩ (0 : Fin 2) * 128 + 128; rw [e0]; show (i 0).val / 128 * 128 ≤ (i 0).val ∧ (i 0).val < (i 0).val / 128 * 128 + 128; omega
  | ⟨1, _⟩ => show win0_16.index ⟨(i 0).val / 128, ht⟩ (1 : Fin 2) * 3 ≤ (i 1).val ∧ (i 1).val < win0_16.index ⟨(i 0).val / 128, ht⟩ (1 : Fin 2) * 3 + 3; rw [e1]; omega

/-- So after the run result window 16's array is the batch's function of the argument arrays. -/
theorem final16 (c : Dev nD) : (dats m 0 c).arrAt 16 cfg0.N = probsOf m c :=
  (dats m 0 c).arrAt_eq_of_cover 16 (probsOf m c) (fun t _ => flushed16_eq m c t) cover16

/-! ## The run, read -/

/-- Every execution of the kernel's program ends with the four result arrays at the batch's functions of the argument
    arrays, the arguments unchanged. -/
theorem run : θ_run defs (onTc (τ := τ) (main (F := Ideal))) ⟨m, fun _ => 0, ρ⟩ fun r => ∀ c : Dev nD,
      r.2.mem ((c : Thread nD τ).loc main_v5_0) = stackOf m c
      ∧ r.2.mem ((c : Thread nD τ).loc main_v5_1) = stateOf m c
      ∧ r.2.mem ((c : Thread nD τ).loc main_v5_2) = bufOf m c
      ∧ r.2.mem ((c : Thread nD τ).loc main_v5_3) = probsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c),
      (h c).2.2.1.trans (final15 m c), (h c).2.2.2.1.trans (final16 m c), (h c).2.2.2.2⟩)
    (Value.run_blocks m ρ)

end Cert.KernelIdeal.Arrays

end
-- ==== Proof.RefHeads.lean ====
/-
  The reference's three heads as the stack cell's batched functions.

  The reference embeds the previous state and the stack's top slot by two affine layers, lays the input embedding and
  the two embedded rows end to end into 384 features, and reads three affine heads off them. Each stage is read at an
  index: an affine layer's element is a sum over the contracted coordinate plus the bias, the joined row's element
  comes from the piece its coordinate falls in, the row maximum is a fold of max over the three logits from −∞, and
  the softmax divides the exponential of a logit less the maximum by the sum of the three exponentials.
-/
import proofs.«407272_j37357625540657_3_alg».proof.Proof.Gen.ReferenceIdeal.Read
import proofs.«407272_j37357625540657_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx StackCell

/-! ## The two embedding layers at an index -/

/-- The embedded state: row `b` of the previous state against the state weights, plus the bias. -/
theorem stateEmb_apply (x1 : (⟨S8192x128, .f32⟩ : BufTy).Contents (Elt Ideal)) (x3 : (⟨S128x128, .f32⟩ : BufTy).Contents (Elt Ideal)) (x4 : (⟨S128, .f32⟩ : BufTy).Contents (Elt Ideal)) (b : Fin 8192) (j : Fin 128) :
    val_main_v5 (F := Ideal) x1 x3 x4 (ix2 b j) = lin (mat x1 b) (mat x3) (vec x4) j := by
  rw [val_main_v5_apply, val_main_v2_apply, val_main_v4_apply, val_main_v3_apply]
  have el : ∀ k : Fin 128, lidx_main_v2 (ix2 b j) k = ix2 b k := fun k => funext fun a => by
    match a with
    | ⟨0, _⟩ => rfl
    | ⟨1, _⟩ => rfl
  have er : ∀ k : Fin 128, ridx_main_v2 (ix2 b j) k = ix2 k j := fun k => funext fun a => by
    match a with
    | ⟨0, _⟩ => rfl
    | ⟨1, _⟩ => rfl
  have eb : idx_main_v3 (idx_main_v4 (ix2 b j)) = ix1 j := funext fun a => by
    match a with
    | ⟨0, _⟩ => rfl
  simp only [el, er, eb]
  rfl

/-- The top slot of row `b` of the stack. -/
theorem top_apply (x0 : (⟨S8192x64x128, .f32⟩ : BufTy).Contents (Elt Ideal)) (b : Fin 8192) (k : Fin 128) :
    val_main_v1 (F := Ideal) x0 (ix2 b k) = stackRow x0 b 0 k := by
  rw [val_main_v1_apply, val_main_v0_apply]
  refine congrArg x0 (funext fun a => Fin.ext ?_)
  have hb : b.val < 8192 := b.isLt
  have hk : k.val < 128 := k.isLt
  match a with
  | ⟨0, _⟩ => show (b.val * 128 + k.val) / 128 = b.val; omega
  | ⟨1, _⟩ => rfl
  | ⟨2, _⟩ => show (b.val * 128 + k.val) % 128 = k.val; omega

/-- The embedded stack top: the top slot of row `b` against the top weights, plus the bias. -/
theorem topEmb_apply (x0 : (⟨S8192x64x128, .f32⟩ : BufTy).Contents (Elt Ideal)) (x5 : (⟨S128x128, .f32⟩ : BufTy).Contents (Elt Ideal)) (x6 : (⟨S128, .f32⟩ : BufTy).Contents (Elt Ideal)) (b : Fin 8192) (j : Fin 128) :
    val_main_v9 (F := Ideal) x0 x5 x6 (ix2 b j) = lin (stackRow x0 b 0) (mat x5) (vec x6) j := by
  rw [val_main_v9_apply, val_main_v6_apply, val_main_v8_apply, val_main_v7_apply]
  have el : ∀ k : Fin 128, lidx_main_v6 (ix2 b j) k = ix2 b k := fun k => funext fun a => by
    match a with
    | ⟨0, _⟩ => rfl
    | ⟨1, _⟩ => rfl
  have er : ∀ k : Fin 128, ridx_main_v6 (ix2 b j) k = ix2 k j := fun k => funext fun a => by
    match a with
    | ⟨0, _⟩ => rfl
    | ⟨1, _⟩ => rfl
  have eb : idx_main_v7 (idx_main_v8 (ix2 b j)) = ix1 j := funext fun a => by
    match a with
    | ⟨0, _⟩ => rfl
  simp only [el, er, eb, top_apply]
  rfl

/-! ## The joined row at an index -/

/-- The 384 features of row `b`: the coordinate falls in the input embedding, the embedded state or the embedded top. -/
theorem features_apply (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (b : Fin 8192) (q : Fin 384) :
    val_main_v10 (F := Ideal) x0 x1 x2 x3 x4 x5 x6 (ix2 b q)
      = features (embOf x3 x4 x5 x6) (stackRow x0 b) (mat x1 b) (mat x2 b) q := by
  have hq : q.val < 384 := q.isLt
  unfold val_main_v10 features cat3
  by_cases h1 : q.val < 128
  · rw [dif_pos h1]
    refine (concatenate_apply_piece (1 : Fin S8192x384.rank)
      [⟨S8192x128, x2⟩, ⟨S8192x128, val_main_v5 (F := Ideal) x1 x3 x4⟩, ⟨S8192x128, val_main_v9 (F := Ideal) x0 x5 x6⟩]
      concatenates_S8192x128_S8192x128_S8192x128_S8192x384_d1
      (ix2 b q) 0 (by show (0 : Nat) < 3; omega) S8192x128 x2 rfl rfl 0 rfl (ix2 b (⟨q.val, h1⟩ : Fin 128)) ?_ ?_).trans ?_
    · intro c hc
      match c with
      | ⟨0, _⟩ => rfl
      | ⟨1, _⟩ => exact absurd rfl hc
    · show 0 + q.val = q.val; omega
    · rfl
  · rw [dif_neg h1]
    by_cases h2 : q.val < 256
    · rw [dif_pos h2]
      refine (concatenate_apply_piece (1 : Fin S8192x384.rank)
        [⟨S8192x128, x2⟩, ⟨S8192x128, val_main_v5 (F := Ideal) x1 x3 x4⟩, ⟨S8192x128, val_main_v9 (F := Ideal) x0 x5 x6⟩]
        concatenates_S8192x128_S8192x128_S8192x128_S8192x384_d1
        (ix2 b q) 1 (by show (1 : Nat) < 3; omega) S8192x128 (val_main_v5 (F := Ideal) x1 x3 x4) rfl rfl 128 rfl
        (ix2 b (⟨q.val - 128, by omega⟩ : Fin 128)) ?_ ?_).trans ?_
      · intro c hc
        match c with
        | ⟨0, _⟩ => rfl
        | ⟨1, _⟩ => exact absurd rfl hc
      · show 128 + (q.val - 128) = q.val; omega
      · rw [stateEmb_apply]; rfl
    · rw [dif_neg h2]
      refine (concatenate_apply_piece (1 : Fin S8192x384.rank)
        [⟨S8192x128, x2⟩, ⟨S8192x128, val_main_v5 (F := Ideal) x1 x3 x4⟩, ⟨S8192x128, val_main_v9 (F := Ideal) x0 x5 x6⟩]
        concatenates_S8192x128_S8192x128_S8192x128_S8192x384_d1
        (ix2 b q) 2 (by show (2 : Nat) < 3; omega) S8192x128 (val_main_v9 (F := Ideal) x0 x5 x6) rfl rfl 256 rfl
        (ix2 b (⟨q.val - 256, by omega⟩ : Fin 128)) ?_ ?_).trans ?_
      · intro c hc
        match c with
        | ⟨0, _⟩ => rfl
        | ⟨1, _⟩ => exact absurd rfl hc
      · show 256 + (q.val - 256) = q.val; omega
      · rw [topEmb_apply]; rfl

/-! ## The three heads at an index -/

/-- The three action logits of row `b`. -/
theorem logits_apply (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x3, .f32⟩ : BufTy).Contents (Elt Ideal)) (x8 : (⟨S3, .f32⟩ : BufTy).Contents (Elt Ideal)) (b : Fin 8192) (j : Fin 3) :
    val_main_v14 (F := Ideal) x0 x1 x2 x3 x4 x5 x6 x7 x8 (ix2 b j)
      = head (embOf x3 x4 x5 x6) (mat x7) (vec x8) (stackRow x0 b) (mat x1 b) (mat x2 b) j := by
  rw [val_main_v14_apply, val_main_v11_apply, val_main_v13_apply, val_main_v12_apply]
  have el : ∀ k : Fin 384, lidx_main_v11 (ix2 b j) k = ix2 b k := fun k => funext fun a => by
    match a with
    | ⟨0, _⟩ => rfl
    | ⟨1, _⟩ => rfl
  have er : ∀ k : Fin 384, ridx_main_v11 (ix2 b j) k = ix2 k j := fun k => funext fun a => by
    match a with
    | ⟨0, _⟩ => rfl
    | ⟨1, _⟩ => rfl
  have eb : idx_main_v12 (idx_main_v13 (ix2 b j)) = ix1 j := funext fun a => by
    match a with
    | ⟨0, _⟩ => rfl
  simp only [el, er, eb, features_apply]
  rfl

/-- The 128 buffer logits of row `b`. -/
theorem buf_apply (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x9 : (⟨S384x128, .f32⟩ : BufTy).Contents (Elt Ideal)) (x10 : (⟨S128, .f32⟩ : BufTy).Contents (Elt Ideal)) (b : Fin 8192) (j : Fin 128) :
    val_main_v18 (F := Ideal) x0 x1 x2 x3 x4 x5 x6 x9 x10 (ix2 b j)
      = head (embOf x3 x4 x5 x6) (mat x9) (vec x10) (stackRow x0 b) (mat x1 b) (mat x2 b) j := by
  rw [val_main_v18_apply, val_main_v15_apply, val_main_v17_apply, val_main_v16_apply]
  have el : ∀ k : Fin 384, lidx_main_v15 (ix2 b j) k = ix2 b k := fun k => funext fun a => by
    match a with
    | ⟨0, _⟩ => rfl
    | ⟨1, _⟩ => rfl
  have er : ∀ k : Fin 384, ridx_main_v15 (ix2 b j) k = ix2 k j := fun k => funext fun a => by
    match a with
    | ⟨0, _⟩ => rfl
    | ⟨1, _⟩ => rfl
  have eb : idx_main_v16 (idx_main_v17 (ix2 b j)) = ix1 j := funext fun a => by
    match a with
    | ⟨0, _⟩ => rfl
  simp only [el, er, eb, features_apply]
  rfl

/-- The 128 state logits of row `b`. -/
theorem stateLogits_apply (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S384x128, .f32⟩ : BufTy).Contents (Elt Ideal)) (x12 : (⟨S128, .f32⟩ : BufTy).Contents (Elt Ideal)) (b : Fin 8192) (j : Fin 128) :
    val_main_v22 (F := Ideal) x0 x1 x2 x3 x4 x5 x6 x11 x12 (ix2 b j)
      = head (embOf x3 x4 x5 x6) (mat x11) (vec x12) (stackRow x0 b) (mat x1 b) (mat x2 b) j := by
  rw [val_main_v22_apply, val_main_v19_apply, val_main_v21_apply, val_main_v20_apply]
  have el : ∀ k : Fin 384, lidx_main_v19 (ix2 b j) k = ix2 b k := fun k => funext fun a => by
    match a with
    | ⟨0, _⟩ => rfl
    | ⟨1, _⟩ => rfl
  have er : ∀ k : Fin 384, ridx_main_v19 (ix2 b j) k = ix2 k j := fun k => funext fun a => by
    match a with
    | ⟨0, _⟩ => rfl
    | ⟨1, _⟩ => rfl
  have eb : idx_main_v20 (idx_main_v21 (ix2 b j)) = ix1 j := funext fun a => by
    match a with
    | ⟨0, _⟩ => rfl
  simp only [el, er, eb, features_apply]
  rfl

/-- The buffer logits of the whole batch. -/
theorem ref_buf (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x9 : (⟨S384x128, .f32⟩ : BufTy).Contents (Elt Ideal)) (x10 : (⟨S128, .f32⟩ : BufTy).Contents (Elt Ideal)) :
    val_main_v18 (F := Ideal) x0 x1 x2 x3 x4 x5 x6 x9 x10
      = headArr (B := 8192) (embOf x3 x4 x5 x6) (mat x9) (vec x10) x0 x1 x2 := by
  funext i
  obtain ⟨b, j, rfl⟩ : ∃ (b : Fin 8192) (j : Fin 128), i = ix2 b j := ⟨i 0, i 1, eq_ix2 i⟩
  exact buf_apply x0 x1 x2 x3 x4 x5 x6 x9 x10 b j

/-- The next state of the whole batch: the hyperbolic tangent of the state logits. -/
theorem ref_state (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S384x128, .f32⟩ : BufTy).Contents (Elt Ideal)) (x12 : (⟨S128, .f32⟩ : BufTy).Contents (Elt Ideal)) :
    val_main_v56 (F := Ideal) x0 x1 x2 x3 x4 x5 x6 x11 x12
      = stateArr (B := 8192) (embOf x3 x4 x5 x6) (mat x11) (vec x12) x0 x1 x2 := by
  funext i
  obtain ⟨b, j, rfl⟩ : ∃ (b : Fin 8192) (j : Fin 128), i = ix2 b j := ⟨i 0, i 1, eq_ix2 i⟩
  rw [val_main_v56_apply, stateLogits_apply]
  rfl

/-! ## The softmax of the action logits -/

/-- The row maximum of row `b`: the fold of max over its three logits from −∞, once more against −∞. -/
theorem rowMax_apply (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x3, .f32⟩ : BufTy).Contents (Elt Ideal)) (x8 : (⟨S3, .f32⟩ : BufTy).Contents (Elt Ideal)) (b : Fin 8192) :
    val_main_v25 (F := Ideal) x0 x1 x2 x3 x4 x5 x6 x7 x8 (ix1 b)
      = rowMax (fun a : Fin 3 => val_main_v14 (F := Ideal) x0 x1 x2 x3 x4 x5 x6 x7 x8 (ix2 b a)) := by
  have h : S8192x3.Reduces [1] S8192 := by decide
  rw [val_main_v25_apply, val_main_v24_apply]
  unfold val_main_v23
  rw [Host.reduce_eq_fold_single FloatOps.maximumf _ _ reducesTo_S8192x3_S8192_d1 h h_S_]
  have hf : (val_main_v14 (F := Ideal) x0 x1 x2 x3 x4 x5 x6 x7 x8 ∘ h.lift (ix1 b))
      = fun a : Fin 3 => val_main_v14 (F := Ideal) x0 x1 x2 x3 x4 x5 x6 x7 x8 (ix2 b a) :=
    funext fun k => congrArg (val_main_v14 (F := Ideal) x0 x1 x2 x3 x4 x5 x6 x7 x8) (funext fun c => Fin.ext (by
      match c with
      | ⟨0, _⟩ => rfl
      | ⟨1, _⟩ => rfl))
  refine Eq.trans ?_ (congrArg (fun f : Fin 3 → EReal => max negInf ((Finset.univ : Finset (Fin 3)).fold max negInf f)) hf)
  rfl

/-- The exponential of a logit of row `b` less the row maximum. -/
theorem expo_apply (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x3, .f32⟩ : BufTy).Contents (Elt Ideal)) (x8 : (⟨S3, .f32⟩ : BufTy).Contents (Elt Ideal)) (b : Fin 8192) (a : Fin 3) :
    val_main_v29 (F := Ideal) x0 x1 x2 x3 x4 x5 x6 x7 x8 (ix2 b a)
      = Ideal.exp (val_main_v14 (F := Ideal) x0 x1 x2 x3 x4 x5 x6 x7 x8 (ix2 b a)
          - rowMax (fun a' : Fin 3 => val_main_v14 (F := Ideal) x0 x1 x2 x3 x4 x5 x6 x7 x8 (ix2 b a'))) := by
  rw [val_main_v29_apply, val_main_v28_apply, val_main_v27_apply, val_main_v26_apply]
  have e : idx_main_v26 (idx_main_v27 (ix2 b a)) = ix1 b := funext fun c => by
    match c with
    | ⟨0, _⟩ => rfl
  rw [e, rowMax_apply]
  rfl

/-- The softmax of the three logits of row `b`. -/
theorem soft_apply (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x3, .f32⟩ : BufTy).Contents (Elt Ideal)) (x8 : (⟨S3, .f32⟩ : BufTy).Contents (Elt Ideal)) (b : Fin 8192) (a : Fin 3) :
    val_main_v33 (F := Ideal) x0 x1 x2 x3 x4 x5 x6 x7 x8 (ix2 b a)
      = soft (fun a' : Fin 3 => val_main_v14 (F := Ideal) x0 x1 x2 x3 x4 x5 x6 x7 x8 (ix2 b a')) a := by
  rw [val_main_v33_apply, val_main_v32_apply, val_main_v31_apply]
  have e : idx_main_v31 (idx_main_v32 (ix2 b a)) = ix1 b := funext fun c => by
    match c with
    | ⟨0, _⟩ => rfl
  rw [e, val_main_v30_apply]
  have ek : ∀ k : Fin 3, idx_main_v30 (ix1 b) k = ix2 b k := fun k => funext fun c => by
    match c with
    | ⟨0, _⟩ => rfl
    | ⟨1, _⟩ => rfl
  have hz : (val_main_cst_1 (F := Ideal)) (Shape.Idx.first h_S_) = 0 := Ideal.ofBits_zero_f32
  simp only [ek, expo_apply, hz, zero_add]
  rfl

/-- The action probabilities of the whole batch. -/
theorem ref_probs (x0 : (⟨S8192x64x128, .f32⟩ : BufTy).Contents (Elt Ideal)) (x1 x2 : (⟨S8192x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x3, .f32⟩ : BufTy).Contents (Elt Ideal)) (x8 : (⟨S3, .f32⟩ : BufTy).Contents (Elt Ideal)) :
    val_main_v33 (F := Ideal) x0 x1 x2 x3 x4 x5 x6 x7 x8
      = probsArr (B := 8192) (embOf x3 x4 x5 x6) (mat x7) (vec x8) x0 x1 x2 := by
  funext i
  obtain ⟨b, a, rfl⟩ : ∃ (b : Fin 8192) (a : Fin 3), i = ix2 b a := ⟨i 0, i 1, eq_ix2 i⟩
  rw [soft_apply]
  have hz : (fun a' : Fin 3 => val_main_v14 (F := Ideal) x0 x1 x2 x3 x4 x5 x6 x7 x8 (ix2 b a'))
      = head (embOf x3 x4 x5 x6) (mat x7) (vec x8) (stackRow x0 b) (mat x1 b) (mat x2 b) :=
    funext fun a' => logits_apply x0 x1 x2 x3 x4 x5 x6 x7 x8 b a'
  rw [hz]
  rfl

end Cert.ReferenceIdeal.RefValue

end
-- ==== Proof.RefBlend.lean ====
/-
  The reference's blended stack, read at an index.

  The reference builds the new stack of every batch row from three arrays: the pushed stack (the top slot joined to slots
  0..62, so every slot takes the slot above it and the top stays), the popped stack (slots 1..63 joined to a zero slot, so
  every slot takes the slot below it and the bottom becomes zero) and the stack itself. Each is weighted by one column of
  the row's action probabilities, spread over the 64 slots and 128 lanes of the row, and the three products are added as
  (push + pop) + keep. Read at the index (b, d, w) this is the blend of row b's stack by row b's three probabilities at
  slot d and lane w. No law of arithmetic is used beyond the zero constant being the extended real 0.
-/
import proofs.«407272_j37357625540657_3_alg».proof.Proof.Gen.ReferenceIdeal.Read
import proofs.«407272_j37357625540657_3_alg».proof.Proof.Spec
import Idealize.ShloMosaic.Lib.ValueIdx
import Idealize.ShloMosaic.Lib.Pipeline.Value
import Idealize.ShloMosaic.PureOps.Ideal.Laws

noncomputable section

namespace Cert.ReferenceIdeal.RefBlend

open Cert.ReferenceIdeal Cert.ReferenceIdeal.Gen Cert.ReferenceIdeal.Read Idealize.ShloMosaic Idealize.ShloMosaic.ValueIdx StackCell

/-- The pushed stack at an index: the top slot stays, every other slot takes the slot above it. -/
theorem pushed_apply (x0 : (⟨S8192x64x128, .f32⟩ : BufTy).Contents (Elt Ideal)) (b : Fin 8192) (d : Fin 64)
    (w : Fin 128) :
    val_main_v36 (F := Ideal) x0 (ix3 b d w) = pushed (stackRow x0 b) d w := by
  unfold val_main_v36 pushed stackRow
  by_cases hd : d.val = 0
  · rw [if_pos hd]
    refine (concatenate_pair_apply_left (t := S8192x64x128) (s₁ := S8192x1x128) (s₂ := S8192x63x128) (1 : Fin 3) _ _
      concatenates_S8192x1x128_S8192x63x128_S8192x64x128_d1 (ix3 b d w) rfl (ix3 b (0 : Fin 1) w) (by
        intro a
        match a with
        | ⟨0, _⟩ => rfl
        | ⟨1, _⟩ => show (0 : Nat) = d.val; omega
        | ⟨2, _⟩ => rfl)).trans ?_
    refine (val_main_v34_apply x0 _).trans ?_
    refine congrArg x0 ?_
    funext a
    match a with
    | ⟨0, _⟩ => rfl
    | ⟨1, _⟩ => rfl
    | ⟨2, _⟩ => rfl
  · rw [if_neg hd]
    have hd1 : d.val - 1 < 63 := by have := d.isLt; omega
    refine (concatenate_pair_apply_right (t := S8192x64x128) (s₁ := S8192x1x128) (s₂ := S8192x63x128) (1 : Fin 3) _ _
      concatenates_S8192x1x128_S8192x63x128_S8192x64x128_d1 (ix3 b d w) rfl rfl
      (ix3 b (⟨d.val - 1, hd1⟩ : Fin 63) w) (by
        intro a ha
        match a with
        | ⟨0, _⟩ => rfl
        | ⟨1, _⟩ => exact absurd rfl ha
        | ⟨2, _⟩ => rfl) (by show d.val - 1 + 1 = d.val; omega)).trans ?_
    refine (val_main_v35_apply x0 _).trans ?_
    refine congrArg x0 ?_
    funext a
    match a with
    | ⟨0, _⟩ => rfl
    | ⟨1, _⟩ => rfl
    | ⟨2, _⟩ => rfl

/-- The popped stack at an index: every slot takes the slot below it, the bottom slot is zero. -/
theorem popped_apply (x0 : (⟨S8192x64x128, .f32⟩ : BufTy).Contents (Elt Ideal)) (b : Fin 8192) (d : Fin 64)
    (w : Fin 128) :
    val_main_v40 (F := Ideal) x0 (ix3 b d w) = popped (stackRow x0 b) d w := by
  unfold val_main_v40 popped stackRow
  by_cases hd : d.val + 1 < 64
  · rw [dif_pos hd]
    have hd' : d.val < 63 := by omega
    refine (concatenate_pair_apply_left (t := S8192x64x128) (s₁ := S8192x63x128) (s₂ := S8192x1x128) (1 : Fin 3) _ _
      concatenates_S8192x63x128_S8192x1x128_S8192x64x128_d1 (ix3 b d w) rfl (ix3 b (⟨d.val, hd'⟩ : Fin 63) w) (by
        intro a
        match a with
        | ⟨0, _⟩ => rfl
        | ⟨1, _⟩ => rfl
        | ⟨2, _⟩ => rfl)).trans ?_
    refine (val_main_v37_apply x0 _).trans ?_
    refine congrArg x0 ?_
    funext a
    match a with
    | ⟨0, _⟩ => rfl
    | ⟨1, _⟩ => exact Fin.ext (by show 1 + d.val = d.val + 1; omega)
    | ⟨2, _⟩ => rfl
  · rw [dif_neg hd]
    refine (concatenate_pair_apply_right (t := S8192x64x128) (s₁ := S8192x63x128) (s₂ := S8192x1x128) (1 : Fin 3) _ _
      concatenates_S8192x63x128_S8192x1x128_S8192x64x128_d1 (ix3 b d w) rfl rfl
      (ix3 b (0 : Fin 1) w) (by
        intro a ha
        match a with
        | ⟨0, _⟩ => rfl
        | ⟨1, _⟩ => exact absurd rfl ha
        | ⟨2, _⟩ => rfl) (by show 0 + 63 = d.val; have := d.isLt; omega)).trans ?_
    refine (val_main_v39_apply _).trans ?_
    exact Ideal.ofBits_zero_f32

/-- The push weight at an index: column 0 of the action probabilities, the same on every slot and lane of a row. -/
theorem prob_push_apply (x0 : (⟨S8192x64x128, .f32⟩ : BufTy).Contents (Elt Ideal))
    (x1 x2 : (⟨S8192x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S384x3, .f32⟩ : BufTy).Contents (Elt Ideal))
    (x8 : (⟨S3, .f32⟩ : BufTy).Contents (Elt Ideal))
    (b : Fin 8192) (d : Fin 64) (w : Fin 128) :
    val_main_v44 (F := Ideal) x0 x1 x2 x3 x4 x5 x6 x7 x8 (ix3 b d w)
      = val_main_v33 (F := Ideal) x0 x1 x2 x3 x4 x5 x6 x7 x8 (ix2 b (0 : Fin 3)) := by
  rw [val_main_v44_apply, val_main_v43_apply, val_main_v42_apply, val_main_v41_apply]
  refine congrArg (val_main_v33 (F := Ideal) x0 x1 x2 x3 x4 x5 x6 x7 x8) ?_
  funext a
  match a with
  | ⟨0, _⟩ => exact Fin.ext (by show ((b.val * 1 + 0) * 1 + 0) / 1 = b.val; omega)
  | ⟨1, _⟩ => rfl

/-- The pop weight at an index: column 1 of the action probabilities. -/
theorem prob_pop_apply (x0 : (⟨S8192x64x128, .f32⟩ : BufTy).Contents (Elt Ideal))
    (x1 x2 : (⟨S8192x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S384x3, .f32⟩ : BufTy).Contents (Elt Ideal))
    (x8 : (⟨S3, .f32⟩ : BufTy).Contents (Elt Ideal))
    (b : Fin 8192) (d : Fin 64) (w : Fin 128) :
    val_main_v48 (F := Ideal) x0 x1 x2 x3 x4 x5 x6 x7 x8 (ix3 b d w)
      = val_main_v33 (F := Ideal) x0 x1 x2 x3 x4 x5 x6 x7 x8 (ix2 b (1 : Fin 3)) := by
  rw [val_main_v48_apply, val_main_v47_apply, val_main_v46_apply, val_main_v41_apply]
  refine congrArg (val_main_v33 (F := Ideal) x0 x1 x2 x3 x4 x5 x6 x7 x8) ?_
  funext a
  match a with
  | ⟨0, _⟩ => exact Fin.ext (by show ((b.val * 1 + 0) * 1 + 0) / 1 = b.val; omega)
  | ⟨1, _⟩ => rfl

/-- The keep weight at an index: column 2 of the action probabilities. -/
theorem prob_keep_apply (x0 : (⟨S8192x64x128, .f32⟩ : BufTy).Contents (Elt Ideal))
    (x1 x2 : (⟨S8192x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S384x3, .f32⟩ : BufTy).Contents (Elt Ideal))
    (x8 : (⟨S3, .f32⟩ : BufTy).Contents (Elt Ideal))
    (b : Fin 8192) (d : Fin 64) (w : Fin 128) :
    val_main_v53 (F := Ideal) x0 x1 x2 x3 x4 x5 x6 x7 x8 (ix3 b d w)
      = val_main_v33 (F := Ideal) x0 x1 x2 x3 x4 x5 x6 x7 x8 (ix2 b (2 : Fin 3)) := by
  rw [val_main_v53_apply, val_main_v52_apply, val_main_v51_apply, val_main_v41_apply]
  refine congrArg (val_main_v33 (F := Ideal) x0 x1 x2 x3 x4 x5 x6 x7 x8) ?_
  funext a
  match a with
  | ⟨0, _⟩ => exact Fin.ext (by show ((b.val * 1 + 0) * 1 + 0) / 1 = b.val; omega)
  | ⟨1, _⟩ => rfl

/-- The reference's new stack at an index is the blend of the row's stack by the row's three action probabilities:
    the push term plus the pop term, plus the keep term, as the reference adds them. -/
theorem ref_blend (x0 : (⟨S8192x64x128, .f32⟩ : BufTy).Contents (Elt Ideal))
    (x1 x2 : (⟨S8192x128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S384x3, .f32⟩ : BufTy).Contents (Elt Ideal))
    (x8 : (⟨S3, .f32⟩ : BufTy).Contents (Elt Ideal))
    (b : Fin 8192) (d : Fin 64) (w : Fin 128) :
    val_main_v55 (F := Ideal) x0 x1 x2 x3 x4 x5 x6 x7 x8 (ix3 b d w)
      = blend (fun a => val_main_v33 (F := Ideal) x0 x1 x2 x3 x4 x5 x6 x7 x8 (ix2 b a)) (stackRow x0 b) d w := by
  rw [val_main_v55_apply, val_main_v50_apply, val_main_v54_apply, val_main_v45_apply, val_main_v49_apply,
    prob_push_apply, prob_pop_apply, prob_keep_apply, pushed_apply, popped_apply]
  rfl

end Cert.ReferenceIdeal.RefBlend

end
-- ==== Proof.lean ====
/-
  The stack cell against its reference: the claims.

  Both programs compute, for each of 8192 batch rows, the same four values of the row: the new stack (push, pop and keep
  blended by the row's three action probabilities), the next state, the buffer logits and the action probabilities. The
  reference does it for the whole batch at once; the kernel does it for 128 rows per grid point, its 64 blocks tiling each
  result, its weights passing through a change of float format that is the identity on the extended reals. Each side's
  result arrays are shown to be the row-by-row functions of Proof/Spec.lean of the argument arrays; the two sides differ
  only in how the new stack's top and bottom slots are arranged, which Proof/SpecLaws.lean shows to be the same value.
  The three frames are the generated ones (the reference's is its run with the results dropped), and the idealization
  ledger is empty.
-/
import proofs.«407272_j37357625540657_3_alg».proof.Defs
import proofs.«407272_j37357625540657_3_alg».proof.Proof.Gen.Kernel
import proofs.«407272_j37357625540657_3_alg».proof.Proof.Gen.Kernel.Skeleton
import proofs.«407272_j37357625540657_3_alg».proof.Proof.Gen.Kernel.Launch
import proofs.«407272_j37357625540657_3_alg».proof.Proof.Gen.Kernel.Points
import proofs.«407272_j37357625540657_3_alg».proof.Proof.Gen.Kernel.Frame
import proofs.«407272_j37357625540657_3_alg».proof.Proof.Gen.KernelIdeal
import proofs.«407272_j37357625540657_3_alg».proof.Proof.Gen.KernelIdeal.Skeleton
import proofs.«407272_j37357625540657_3_alg».proof.Proof.Gen.KernelIdeal.Launch
import proofs.«407272_j37357625540657_3_alg».proof.Proof.Gen.KernelIdeal.Points
import proofs.«407272_j37357625540657_3_alg».proof.Proof.Gen.KernelIdeal.Frame
import proofs.«407272_j37357625540657_3_alg».proof.Proof.Gen.ReferenceIdeal
import proofs.«407272_j37357625540657_3_alg».proof.Proof.Gen.Pre_finite_inputs
import proofs.«407272_j37357625540657_3_alg».proof.Proof.Gen.KernelIdeal.Value
import proofs.«407272_j37357625540657_3_alg».proof.Proof.Gen.ReferenceIdeal.Run
import proofs.«407272_j37357625540657_3_alg».proof.Proof.Gen.ReferenceIdeal.Read
import proofs.«407272_j37357625540657_3_alg».proof.Proof.KernelBlocks
import proofs.«407272_j37357625540657_3_alg».proof.Proof.RefHeads
import proofs.«407272_j37357625540657_3_alg».proof.Proof.RefBlend
import Idealize.ShloMosaic.Adequacy
import Idealize.ShloMosaic.Init

noncomputable section

/-! ## The reference's new stack as the batched blend -/

namespace Cert.ReferenceIdeal.RefArrays

open Cert.ReferenceIdeal Cert.ReferenceIdeal.Gen Cert.ReferenceIdeal.Read Idealize.ShloMosaic Idealize.ShloMosaic.ValueIdx StackCell

/-- The reference's new stack is the blend of each row's stack by that row's action probabilities. -/
theorem ref_stack (x0 : (⟨S8192x64x128, .f32⟩ : BufTy).Contents (Elt Ideal)) (x1 x2 : (⟨S8192x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S384x3, .f32⟩ : BufTy).Contents (Elt Ideal)) (x8 : (⟨S3, .f32⟩ : BufTy).Contents (Elt Ideal)) :
    val_main_v55 (F := Ideal) x0 x1 x2 x3 x4 x5 x6 x7 x8
      = stackArr (B := 8192) (embOf x3 x4 x5 x6) (mat x7) (vec x8) x0 x1 x2 := by
  funext i
  obtain ⟨b, d, w, rfl⟩ : ∃ (b : Fin 8192) (d : Fin 64) (w : Fin 128), i = ix3 b d w := ⟨i 0, i 1, i 2, eq_ix3 i⟩
  rw [RefBlend.ref_blend, RefValue.ref_probs]
  rfl

end Cert.ReferenceIdeal.RefArrays

/-! ## The claims -/

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the thirteen arguments both programs end with the four results at the batch's functions of
    the kernel's argument arrays. -/
theorem algebraic : Cert.algebraic_KernelIdeal_ReferenceIdeal := by
  intro m ρ m' ρ' _ hagree
  refine ⟨fun c => Cert.KernelIdeal.Arrays.stackOf m c, fun c => Cert.KernelIdeal.Arrays.stateOf m c,
    fun c => Cert.KernelIdeal.Arrays.bufOf m c, fun c => Cert.KernelIdeal.Arrays.probsOf m c,
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2.1.trans ?_, (h c).2.2.2.1.trans ?_, (h c).2.2.2.2⟩
  · rw [Cert.ReferenceIdeal.Read.val_main_v55_eq, Cert.ReferenceIdeal.RefArrays.ref_stack, a0, a1, a2, a3, a4, a5, a6, a7, a8]
  · rw [Cert.ReferenceIdeal.Read.val_main_v56_eq, Cert.ReferenceIdeal.RefValue.ref_state, a0, a1, a2, a3, a4, a5, a6, a11, a12]
  · rw [Cert.ReferenceIdeal.Read.val_main_v18_eq, Cert.ReferenceIdeal.RefValue.ref_buf, a0, a1, a2, a3, a4, a5, a6, a9, a10]
  · rw [Cert.ReferenceIdeal.Read.val_main_v33_eq, Cert.ReferenceIdeal.RefValue.ref_probs, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
